-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_arg10 : FVec F S128x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 64
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S100000x128, .f32⟩
  | .hbm, ⟨42, _⟩ => ⟨S1x128, .f32⟩
  | .hbm, ⟨43, _⟩ => ⟨S1x128, .f32⟩
  | .hbm, ⟨44, _⟩ => ⟨S_, .f32⟩
  | .hbm, ⟨45, _⟩ => ⟨S1x128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S100000x128, .f32⟩
  | .hbm, ⟨53, _⟩ => ⟨S1x128, .f32⟩
  | .hbm, ⟨54, _⟩ => ⟨S1x128, .f32⟩
  | .hbm, ⟨55, _⟩ => ⟨S_, .f32⟩
  | .hbm, ⟨56, _⟩ => ⟨S1x128, .f32⟩
  | .hbm, ⟨57, _⟩ => ⟨S1x128, .f32⟩
  | .hbm, ⟨58, _⟩ => ⟨S_, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S1x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S128x128, .f32⟩
  | .local _ .vmem, ⟨27, _⟩ => ⟨S5000x128, .f32⟩
  | .local _ .vmem, ⟨28, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev main_v26_2 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33_0 : Ref sig .tc := ⟨.hbm, 52, rfl⟩
abbrev main_v33_1 : Ref sig .tc := ⟨.hbm, 53, rfl⟩
abbrev main_v33_2 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg9_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg6_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem9_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem6_1 : DmaSem sig := 28

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v26_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v33_1) S1x128.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v33_2) S1x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v33_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v40) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 113
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S128x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S128x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S128, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S128, .f32⟩
  | .hbm, ⟨94, _⟩ => ⟨S128, .f32⟩
  | .hbm, ⟨95, _⟩ => ⟨S128, .f32⟩
  | .hbm, ⟨96, _⟩ => ⟨S1x128, .f32⟩
  | .hbm, ⟨97, _⟩ => ⟨S100000x128, .f32⟩
  | .hbm, ⟨98, _⟩ => ⟨S100000x128, .f32⟩
  | .hbm, ⟨99, _⟩ => ⟨S1x128, .f32⟩
  | .hbm, ⟨100, _⟩ => ⟨S100000x128, .f32⟩
  | .hbm, ⟨101, _⟩ => ⟨S100000x128, .f32⟩
  | .hbm, ⟨102, _⟩ => ⟨S1x128, .f32⟩
  | .hbm, ⟨103, _⟩ => ⟨S100000x128, .f32⟩
  | .hbm, ⟨104, _⟩ => ⟨S100000x128, .f32⟩
  | .hbm, ⟨105, _⟩ => ⟨S_, .f32⟩
  | .hbm, ⟨106, _⟩ => ⟨S100000x128, .f32⟩
  | .hbm, ⟨107, _⟩ => ⟨S100000x128, .f32⟩
  | .hbm, ⟨108, _⟩ => ⟨S128x128, .f32⟩
  | .hbm, ⟨109, _⟩ => ⟨S100000x128, .f32⟩
  | .hbm, ⟨110, _⟩ => ⟨S_, .f32⟩
  | .hbm, ⟨111, _⟩ => ⟨S100000x128, .f32⟩
  | .hbm, ⟨112, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call0_cst : Ref sig .tc := ⟨.hbm, 67, rfl⟩
abbrev main_call0_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_9 : Ref sig .tc := ⟨.hbm, 84, rfl⟩
abbrev main_v60 : Ref sig .tc := ⟨.hbm, 85, rfl⟩
abbrev main_cst_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_call1_cst : Ref sig .tc := ⟨.hbm, 105, rfl⟩
abbrev main_call1_v0 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_call2_cst : Ref sig .tc := ⟨.hbm, 110, rfl⟩
abbrev main_call2_v0 : Ref sig .tc := ⟨.hbm, 111, rfl⟩
abbrev main_v81 : Ref sig .tc := ⟨.hbm, 112, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Glue.lean ====
/-
  The host side of the kernel program, read as values: what each kernel region finds in the arrays it reads.
  Before the first region the host aggregates the input features (the same operations the reference applies),
  transposes the weight matrices and lays each vector out as a one-row matrix; between regions it divides the
  column sums and sums of squares by the number of rows and subtracts the squared mean; every array a later
  region reads that no earlier region writes comes through unchanged.
-/
import proofs.«129943_j71416716197907_1_alg».proof.Proof.Gen.KernelIdeal.Frame
import proofs.«129943_j71416716197907_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Glue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The number of rows, as the float literal the host divides by. -/
abbrev n : EReal := Ideal.ofBits .f32 0x47C35000#32

/-- A one-row matrix read at a column, as an extended real. -/
abbrev at1 (x : Vec Ideal S1x128 .f32) (q : Fin 128) : EReal := x (ix2 0 q)

/-! ## Layout operations read at a coordinate -/

/-- A transposed square matrix read at row k, column q is the matrix at row q, column k. -/
theorem transpose_at (x : Vec Ideal S128x128 .f32) (k q : Fin 128) :
    transpose S128x128 [1, 0] x transposes_S128x128_S128x128_1_0 (ix2 k q) = x (ix2 q k) :=
  transpose_apply [1, 0] x transposes_S128x128_S128x128_1_0 (ix2 k q) (ix2 q k) (fun b => match b with
    | ⟨0, _⟩ => rfl
    | ⟨1, _⟩ => rfl)

/-- A vector laid out as a one-row matrix, read at column q, is the vector at q: both sit at row-major position q. -/
theorem row_at (x : Vec Ideal S128 .f32) (q : Fin 128) :
    shapeCast S1x128 x shapeCasts_S128_S1x128 (ix2 0 q) = x (ix1 q) :=
  shapeCast_apply x shapeCasts_S128_S1x128 (ix2 0 q) (ix1 q)
    (by rewrite [Shape.rowMajor_val_two, Shape.rowMajor_val_one]; show q.val = 0 * 128 + q.val; omega)

/-! ## What the first host stretch computes, as whole arrays

Each is the fold through the first stretch read at the buffer the operation writes: the operation's function of the
launch memory at its operand (no later operation of the stretch writes that buffer, and the operand is an argument). -/

theorem v17_whole (c : Dev nD) : (V1 m ρ c main_v17 : Vec Ideal S128x128 .f32)
    = transpose S128x128 [1, 0] ((m ((c : Thread nD τ).loc main_arg2)) : Vec Ideal S128x128 .f32) transposes_S128x128_S128x128_1_0 := by
  show StableHlo.after hostOps0 (W0 m ρ c) (Proc.devRef .tc main_v17) = _
  after_results

theorem v18_whole (c : Dev nD) : (V1 m ρ c main_v18 : Vec Ideal S128x128 .f32)
    = transpose S128x128 [1, 0] ((m ((c : Thread nD τ).loc main_arg6)) : Vec Ideal S128x128 .f32) transposes_S128x128_S128x128_1_0 := by
  show StableHlo.after hostOps0 (W0 m ρ c) (Proc.devRef .tc main_v18) = _
  after_results

theorem v20_whole (c : Dev nD) : (V1 m ρ c main_v20 : Vec Ideal S1x128 .f32)
    = shapeCast S1x128 ((m ((c : Thread nD τ).loc main_arg3)) : Vec Ideal S128 .f32) shapeCasts_S128_S1x128 := by
  show StableHlo.after hostOps0 (W0 m ρ c) (Proc.devRef .tc main_v20) = _
  after_results
  rfl

theorem v21_whole (c : Dev nD) : (V1 m ρ c main_v21 : Vec Ideal S1x128 .f32)
    = shapeCast S1x128 ((m ((c : Thread nD τ).loc main_arg4)) : Vec Ideal S128 .f32) shapeCasts_S128_S1x128 := by
  show StableHlo.after hostOps0 (W0 m ρ c) (Proc.devRef .tc main_v21) = _
  after_results
  rfl

theorem v22_whole (c : Dev nD) : (V1 m ρ c main_v22 : Vec Ideal S1x128 .f32)
    = shapeCast S1x128 ((m ((c : Thread nD τ).loc main_arg5)) : Vec Ideal S128 .f32) shapeCasts_S128_S1x128 := by
  show StableHlo.after hostOps0 (W0 m ρ c) (Proc.devRef .tc main_v22) = _
  after_results
  rfl

theorem v23_whole (c : Dev nD) : (V1 m ρ c main_v23 : Vec Ideal S1x128 .f32)
    = shapeCast S1x128 ((m ((c : Thread nD τ).loc main_arg7)) : Vec Ideal S128 .f32) shapeCasts_S128_S1x128 := by
  show StableHlo.after hostOps0 (W0 m ρ c) (Proc.devRef .tc main_v23) = _
  after_results
  rfl

/-! ## What the first region finds -/

/-- The aggregated input features: the reference's own stage function of the first two arguments. The fold through
    the first stretch, read at the buffer of the final sum, is the chain of the twenty-one operations that feed it applied
    to the first two arguments; the reference's stage function is the same chain, operation by operation. -/
theorem v16 (c : Dev nD) : (V1 m ρ c main_v16 : Vec Ideal S100000x128 .f32)
    = Cert.ReferenceIdeal.Read.val_main_v16 (F := Ideal) (m ((c : Thread nD τ).loc main_arg0)) (m ((c : Thread nD τ).loc main_arg1)) := by
  show StableHlo.after hostOps0 (W0 m ρ c) (Proc.devRef .tc main_v16) = _
  after_results_simp
  rfl

/-- The first weight matrix, transposed. -/
theorem v17 (c : Dev nD) (k q : Fin 128) : (V1 m ρ c main_v17 : Vec Ideal S128x128 .f32) (ix2 k q)
    = ((m ((c : Thread nD τ).loc main_arg2)) : Vec Ideal S128x128 .f32) (ix2 q k) := by
  rw [v17_whole]; exact transpose_at _ k q
/-- The first bias as a one-row matrix. -/
theorem v20 (c : Dev nD) (q : Fin 128) : (V1 m ρ c main_v20 : Vec Ideal S1x128 .f32) (ix2 0 q)
    = ((m ((c : Thread nD τ).loc main_arg3)) : Vec Ideal S128 .f32) (ix1 q) := by
  rw [v20_whole]; exact row_at _ q

/-! ## From the first region's entry to the second's

The second host stretch writes eight buffers (two constants, their two broadcasts, two quotients, a product, a
difference); the first region writes its six arrays. Any other buffer holds at the second region's entry what it held
at the first region's entry. -/

/-- The buffers the host writes between the first and the second region. -/
abbrev written1 : List (Ref sig .tc) := [main_cst_2, main_v27, main_v28, main_cst_3, main_v29, main_v30, main_v31, main_v32]

theorem hostOps1_writes : (hostOps1 : List (HloOp τ sig (Elt Ideal))).Forall fun op =>
    op.writes ⊆ (written1.map (Proc.devRef (τ := τ) .tc)).toFinset := by
  simp only [List.Forall, StableHlo.nullary_writes, StableHlo.unary_writes, StableHlo.binary_writes,
    Finset.singleton_subset_iff, List.mem_toFinset]
  repeat' apply And.intro
  all_goals exact List.mem_map_of_mem (by decide)

/-- A buffer the second host stretch does not write holds at the second region's entry what it held at the first
    region's exit. -/
theorem W3_keep (c : Dev nD) (r : Ref sig .tc) (h : r ∉ written1) :
    W3 m ρ c (Proc.devRef .tc r) = W2 m ρ c (Proc.devRef .tc r) :=
  StableHlo.after_of_writes_sub hostOps1 _ hostOps1_writes h

/-- A buffer neither the first region nor the second host stretch writes holds at the second region's entry what it
    held at the first region's entry. -/
theorem V3_through (c : Dev nD) (r : Ref sig .tc) (h1 : r ∉ written1) (h0 : ∀ w, Pipeline.arrRef spec0 w ≠ r) :
    V3 m ρ c r = V1 m ρ c r :=
  (W3_keep m ρ c r h1).trans (W2_of_ne m ρ c r h0)

/-- The row whose every entry is the number of rows. -/
abbrev nRow : FVec Ideal S1x128 .f32 := broadcastInDim S1x128 ![] bcast_S_S1x128 (constant (F := Ideal) S_ .f32 0x47C35000#32)

/-- The first region's column sums and column sums of squares, as rows of extended reals. -/
abbrev sum0 (c : Dev nD) : FVec Ideal S1x128 .f32 := (dat0 (V1 m ρ) c).arrAt 4 cfg0.N
abbrev sq0 (c : Dev nD) : FVec Ideal S1x128 .f32 := (dat0 (V1 m ρ) c).arrAt 5 cfg0.N

/-- The mean row as a whole: the quotient of the first region's second result array by the row of row counts. -/
theorem v28_whole (c : Dev nD) : (V3 m ρ c main_v28 : FVec Ideal S1x128 .f32)
    = Host.divf (F := Ideal) (s := S1x128) (φ := .f32) (sum0 m ρ c) nRow := by
  show StableHlo.after hostOps1 (W2 m ρ c) (Proc.devRef .tc main_v28) = _
  after_results
  rw [show W2 m ρ c (Proc.devRef .tc main_v26_1) = (dat0 (V1 m ρ) c).arrAt 4 cfg0.N from W2_arr m ρ c 4]

/-- The variance row as a whole. -/
theorem v32_whole (c : Dev nD) : (V3 m ρ c main_v32 : FVec Ideal S1x128 .f32)
    = subf (F := Ideal) (s := S1x128) (φ := .f32) (Host.divf (sq0 m ρ c) nRow)
        (mulf (Host.divf (sum0 m ρ c) nRow) (Host.divf (sum0 m ρ c) nRow)) := by
  show StableHlo.after hostOps1 (W2 m ρ c) (Proc.devRef .tc main_v32) = _
  after_results
  rw [show W2 m ρ c (Proc.devRef .tc main_v26_1) = (dat0 (V1 m ρ) c).arrAt 4 cfg0.N from W2_arr m ρ c 4,
    show W2 m ρ c (Proc.devRef .tc main_v26_2) = (dat0 (V1 m ρ) c).arrAt 5 cfg0.N from W2_arr m ρ c 5]

/-! ## What the second region finds -/

/-- The first region's result array, untouched by the host in between. -/
theorem v26_0 (c : Dev nD) : (V3 m ρ c main_v26_0 : Vec Ideal S100000x128 .f32) = (dat0 (V1 m ρ) c).arrAt 3 cfg0.N :=
  (W3_keep m ρ c main_v26_0 (by decide)).trans (W2_arr m ρ c 3)
/-- The mean row: the first region's column sums divided by the number of rows. -/
theorem v28 (c : Dev nD) (q : Fin 128) : (V3 m ρ c main_v28 : Vec Ideal S1x128 .f32) (ix2 0 q)
    = Ideal.div (((dat0 (V1 m ρ) c).arrAt 4 cfg0.N : Vec Ideal S1x128 .f32) (ix2 0 q)) n := by
  rw [v28_whole]; rfl
/-- The variance row: the column sums of squares divided by the number of rows, minus the squared mean. -/
theorem v32 (c : Dev nD) (q : Fin 128) : (V3 m ρ c main_v32 : Vec Ideal S1x128 .f32) (ix2 0 q)
    = Ideal.div (((dat0 (V1 m ρ) c).arrAt 5 cfg0.N : Vec Ideal S1x128 .f32) (ix2 0 q)) n
      - at1 (V3 m ρ c main_v28) q * at1 (V3 m ρ c main_v28) q := by
  rw [v32_whole, v28_whole]; rfl
/-- The first scale as a one-row matrix. -/
theorem v21 (c : Dev nD) (q : Fin 128) : (V3 m ρ c main_v21 : Vec Ideal S1x128 .f32) (ix2 0 q)
    = ((m ((c : Thread nD τ).loc main_arg4)) : Vec Ideal S128 .f32) (ix1 q) := by
  rw [V3_through m ρ c main_v21 (by decide) (by decide), v21_whole]; exact row_at _ q
/-- The first shift as a one-row matrix. -/
theorem v22 (c : Dev nD) (q : Fin 128) : (V3 m ρ c main_v22 : Vec Ideal S1x128 .f32) (ix2 0 q)
    = ((m ((c : Thread nD τ).loc main_arg5)) : Vec Ideal S128 .f32) (ix1 q) := by
  rw [V3_through m ρ c main_v22 (by decide) (by decide), v22_whole]; exact row_at _ q
/-- The second weight matrix, transposed. -/
theorem v18 (c : Dev nD) (k q : Fin 128) : (V3 m ρ c main_v18 : Vec Ideal S128x128 .f32) (ix2 k q)
    = ((m ((c : Thread nD τ).loc main_arg6)) : Vec Ideal S128x128 .f32) (ix2 q k) := by
  rw [V3_through m ρ c main_v18 (by decide) (by decide), v18_whole]; exact transpose_at _ k q
/-- The second bias as a one-row matrix. -/
theorem v23 (c : Dev nD) (q : Fin 128) : (V3 m ρ c main_v23 : Vec Ideal S1x128 .f32) (ix2 0 q)
    = ((m ((c : Thread nD τ).loc main_arg7)) : Vec Ideal S128 .f32) (ix1 q) := by
  rw [V3_through m ρ c main_v23 (by decide) (by decide), v23_whole]; exact row_at _ q

end Cert.KernelIdeal.Glue

end
-- ==== Proof.Glue2.lean ====
/-
  The host side of the kernel program before its third region, and the program's result: the second region's
  result array comes through unchanged, its column sums and sums of squares become the second mean and variance
  rows, the second scale and shift and the third weight matrix come through from before the first region, and
  the result array is what the third region's write-backs leave.
-/
import proofs.«129943_j71416716197907_1_alg».proof.Proof.Glue

set_option maxRecDepth 16384

noncomputable section

namespace Cert.KernelIdeal.Glue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## Buffers that come through unchanged, and the layout and arithmetic of the host operations at an entry -/

/-- The host operations before the third region leave every buffer they do not write. -/
theorem g2_host2 (c : Dev nD) (b : Ref sig .tc)
    (h : b ≠ main_cst_4 ∧ b ≠ main_v34 ∧ b ≠ main_v35 ∧ b ≠ main_cst_5 ∧ b ≠ main_v36 ∧ b ≠ main_v37 ∧ b ≠ main_v38 ∧ b ≠ main_v39) :
    W5 m ρ c (Proc.devRef .tc b) = W4 m ρ c (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, Finset.mem_singleton]
    obtain ⟨h0, h1, h2, h3, h4, h5, h6, h7⟩ := h
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7⟩))

/-- The host operations before the second region leave every buffer they do not write. -/
theorem g2_host1 (c : Dev nD) (b : Ref sig .tc)
    (h : b ≠ main_cst_2 ∧ b ≠ main_v27 ∧ b ≠ main_v28 ∧ b ≠ main_cst_3 ∧ b ≠ main_v29 ∧ b ≠ main_v30 ∧ b ≠ main_v31 ∧ b ≠ main_v32) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, Finset.mem_singleton]
    obtain ⟨h0, h1, h2, h3, h4, h5, h6, h7⟩ := h
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7⟩))

/-- A buffer no region owns and no later host operation writes is at the third region's entry what it was
    at the first region's entry. -/
theorem g2_through (c : Dev nD) (b : Ref sig .tc)
    (h0 : ∀ w, Pipeline.arrRef spec0 w ≠ b)
    (h1 : b ≠ main_cst_2 ∧ b ≠ main_v27 ∧ b ≠ main_v28 ∧ b ≠ main_cst_3 ∧ b ≠ main_v29 ∧ b ≠ main_v30 ∧ b ≠ main_v31 ∧ b ≠ main_v32)
    (h2 : ∀ w, Pipeline.arrRef spec1 w ≠ b)
    (h3 : b ≠ main_cst_4 ∧ b ≠ main_v34 ∧ b ≠ main_v35 ∧ b ≠ main_cst_5 ∧ b ≠ main_v36 ∧ b ≠ main_v37 ∧ b ≠ main_v38 ∧ b ≠ main_v39) :
    W5 m ρ c (Proc.devRef .tc b) = W1 m ρ c (Proc.devRef .tc b) :=
  calc W5 m ρ c (Proc.devRef .tc b)
    _ = W4 m ρ c (Proc.devRef .tc b) := g2_host2 m ρ c b h3
    _ = W3 m ρ c (Proc.devRef .tc b) := W4_of_ne m ρ c b h2
    _ = W2 m ρ c (Proc.devRef .tc b) := g2_host1 m ρ c b h1
    _ = W1 m ρ c (Proc.devRef .tc b) := W2_of_ne m ρ c b h0

/-- A vector laid out as a one-row matrix, read at a column. -/
theorem g2_row (x : Vec Ideal S128 .f32) (q : Fin 128) :
    shapeCast S1x128 x shapeCasts_S128_S1x128 (ix2 0 q) = x (ix1 q) :=
  shapeCast_apply x shapeCasts_S128_S1x128 (ix2 0 q) (ix1 q)
    (by rw [Shape.rowMajor_val_two, Shape.rowMajor_val_one]; show q.val = 0 * 128 + q.val; omega)

/-- A square matrix transposed, read at an entry. -/
theorem g2_tr (x : Vec Ideal S128x128 .f32) (k q : Fin 128) :
    transpose S128x128 [1, 0] x transposes_S128x128_S128x128_1_0 (ix2 k q) = x (ix2 q k) :=
  transpose_apply [1, 0] x transposes_S128x128_S128x128_1_0 (ix2 k q) (ix2 q k) (fun b => match b with
    | ⟨0, _⟩ => rfl
    | ⟨1, _⟩ => rfl)

/-- The constant row holding the number of rows, read at a column. -/
theorem g2_nrow (q : Fin 128) :
    (broadcastInDim S1x128 ![] bcast_S_S1x128 (constant (F := Ideal) S_ .f32 0x47C35000#32) : Vec Ideal S1x128 .f32) (ix2 0 q) = n :=
  (broadcastInDim_apply _ bcast_S_S1x128 _ (ix2 0 q) (fun a => a.elim0) (fun a => a.elim0)).trans rfl

/-- A one-row matrix divided by the constant row of the number of rows, at a column. -/
theorem g2_div_n (x : Vec Ideal S1x128 .f32) (q : Fin 128) :
    (Host.divf x (broadcastInDim S1x128 ![] bcast_S_S1x128 (constant (F := Ideal) S_ .f32 0x47C35000#32)) : Vec Ideal S1x128 .f32) (ix2 0 q)
      = Ideal.div (x (ix2 0 q)) n :=
  congrArg (Ideal.div (x (ix2 0 q))) (g2_nrow q)

/-- The row of sums of squares over the number of rows, minus the squared row of sums over the number of rows, at a column. -/
theorem g2_var (s1 s2 : Vec Ideal S1x128 .f32) (q : Fin 128) :
    (subf (Host.divf s2 (broadcastInDim S1x128 ![] bcast_S_S1x128 (constant (F := Ideal) S_ .f32 0x47C35000#32)))
        (mulf (Host.divf s1 (broadcastInDim S1x128 ![] bcast_S_S1x128 (constant (F := Ideal) S_ .f32 0x47C35000#32)))
              (Host.divf s1 (broadcastInDim S1x128 ![] bcast_S_S1x128 (constant (F := Ideal) S_ .f32 0x47C35000#32))))
      : Vec Ideal S1x128 .f32) (ix2 0 q)
      = Ideal.div (s2 (ix2 0 q)) n - Ideal.div (s1 (ix2 0 q)) n * Ideal.div (s1 (ix2 0 q)) n := by
  have e := g2_nrow q
  show Ideal.div (s2 (ix2 0 q)) ((broadcastInDim S1x128 ![] bcast_S_S1x128 (constant (F := Ideal) S_ .f32 0x47C35000#32) : Vec Ideal S1x128 .f32) (ix2 0 q))
      - Ideal.div (s1 (ix2 0 q)) ((broadcastInDim S1x128 ![] bcast_S_S1x128 (constant (F := Ideal) S_ .f32 0x47C35000#32) : Vec Ideal S1x128 .f32) (ix2 0 q))
        * Ideal.div (s1 (ix2 0 q)) ((broadcastInDim S1x128 ![] bcast_S_S1x128 (constant (F := Ideal) S_ .f32 0x47C35000#32) : Vec Ideal S1x128 .f32) (ix2 0 q)) = _
  rw [e]

/-! ## What the third region finds -/

/-- The second region's result array. -/
theorem v33_0 (c : Dev nD) : (V5 m ρ c main_v33_0 : Vec Ideal S100000x128 .f32) = (dat1 (V3 m ρ) c).arrAt 7 cfg1.N :=
  (g2_host2 m ρ c main_v33_0 (by decide)).trans (W4_arr m ρ c 7)
/-- The second mean row. -/
theorem v35 (c : Dev nD) (q : Fin 128) : (V5 m ρ c main_v35 : Vec Ideal S1x128 .f32) (ix2 0 q)
    = Ideal.div (((dat1 (V3 m ρ) c).arrAt 8 cfg1.N : Vec Ideal S1x128 .f32) (ix2 0 q)) n := by
  show (StableHlo.after hostOps2 (W4 m ρ c) (Proc.devRef .tc main_v35) : Vec Ideal S1x128 .f32) (ix2 0 q) = _
  after_results_simp
  rw [show W4 m ρ c (Proc.devRef .tc main_v33_1) = _ from W4_arr m ρ c 8]
  exact g2_div_n _ q
/-- The second variance row. -/
theorem v39 (c : Dev nD) (q : Fin 128) : (V5 m ρ c main_v39 : Vec Ideal S1x128 .f32) (ix2 0 q)
    = Ideal.div (((dat1 (V3 m ρ) c).arrAt 9 cfg1.N : Vec Ideal S1x128 .f32) (ix2 0 q)) n
      - at1 (V5 m ρ c main_v35) q * at1 (V5 m ρ c main_v35) q := by
  rw [show at1 (V5 m ρ c main_v35) q = _ from v35 m ρ c q]
  show (StableHlo.after hostOps2 (W4 m ρ c) (Proc.devRef .tc main_v39) : Vec Ideal S1x128 .f32) (ix2 0 q) = _
  after_results_simp
  rw [show W4 m ρ c (Proc.devRef .tc main_v33_2) = _ from W4_arr m ρ c 9,
    show W4 m ρ c (Proc.devRef .tc main_v33_1) = _ from W4_arr m ρ c 8]
  exact g2_var _ _ q
/-- The second scale as a one-row matrix. -/
theorem v24 (c : Dev nD) (q : Fin 128) : (V5 m ρ c main_v24 : Vec Ideal S1x128 .f32) (ix2 0 q)
    = ((m ((c : Thread nD τ).loc main_arg8)) : Vec Ideal S128 .f32) (ix1 q) := by
  rw [show V5 m ρ c main_v24 = W1 m ρ c (Proc.devRef .tc main_v24) from
    g2_through m ρ c main_v24 (by decide) (by decide) (by decide) (by decide)]
  show (StableHlo.after hostOps0 (W0 m ρ c) (Proc.devRef .tc main_v24) : Vec Ideal S1x128 .f32) (ix2 0 q) = _
  after_results_simp
  exact g2_row _ q
/-- The second shift as a one-row matrix. -/
theorem v25 (c : Dev nD) (q : Fin 128) : (V5 m ρ c main_v25 : Vec Ideal S1x128 .f32) (ix2 0 q)
    = ((m ((c : Thread nD τ).loc main_arg9)) : Vec Ideal S128 .f32) (ix1 q) := by
  rw [show V5 m ρ c main_v25 = W1 m ρ c (Proc.devRef .tc main_v25) from
    g2_through m ρ c main_v25 (by decide) (by decide) (by decide) (by decide)]
  show (StableHlo.after hostOps0 (W0 m ρ c) (Proc.devRef .tc main_v25) : Vec Ideal S1x128 .f32) (ix2 0 q) = _
  after_results_simp
  exact g2_row _ q
/-- The third weight matrix, transposed. -/
theorem v19 (c : Dev nD) (k q : Fin 128) : (V5 m ρ c main_v19 : Vec Ideal S128x128 .f32) (ix2 k q)
    = ((m ((c : Thread nD τ).loc main_arg10)) : Vec Ideal S128x128 .f32) (ix2 q k) := by
  rw [show V5 m ρ c main_v19 = W1 m ρ c (Proc.devRef .tc main_v19) from
    g2_through m ρ c main_v19 (by decide) (by decide) (by decide) (by decide)]
  show (StableHlo.after hostOps0 (W0 m ρ c) (Proc.devRef .tc main_v19) : Vec Ideal S128x128 .f32) (ix2 k q) = _
  after_results_simp
  exact g2_tr _ k q

/-! ## The result -/

/-- The program's result array at the last boundary is what the third region's write-backs leave. -/
theorem v40 (c : Dev nD) : W6 m ρ c (Proc.devRef .tc main_v40) = (dat2 (V5 m ρ) c).arrAt 6 cfg2.N :=
  W6_arr m ρ c 6

end Cert.KernelIdeal.Glue

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.Consts.lean ====
/-
  The float literals the two programs spell, as the extended reals their bit patterns denote.
-/
import Idealize.ShloMosaic.PureOps.Ideal

noncomputable section

namespace Gin.Consts

open Idealize.ShloMosaic

/-- The pattern of `+0.0` denotes `0`. -/
theorem ofBits_zero : Ideal.ofBits .f32 0x00000000#32 = 0 := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- The pattern of `100000.0` denotes the real `100000`. -/
theorem ofBits_n : Ideal.ofBits .f32 0x47C35000#32 = ((100000 : ℝ) : EReal) := by
  simp [Ideal.ofBits, Ideal.ieee, -EReal.coe_mul]; norm_num

/-- The pattern `0x3727C5AC` (the float nearest to 1e-5) denotes a positive real. -/
theorem ofBits_eps : ∃ e : ℝ, 0 < e ∧ Ideal.ofBits .f32 0x3727C5AC#32 = (e : EReal) := by
  simp [Ideal.ofBits, Ideal.ieee, -EReal.coe_mul]

end Gin.Consts

end
-- ==== Proof.Pay.lean ====
/-
  What each kernel body computes, entry by entry, over the extended reals.

  Every body loads a block of 5000 rows and 128 columns and small operands, and stores values that are pure
  functions of what it loaded. Read at one entry (row `r`, column `q`): the affine bodies give a sum over the
  128 contracted columns plus a bias; the statistics bodies add to the running row the sum, over the block's 5000
  rows, of the block's entries or of their squares; a change of float format is the identity here.
-/
import proofs.«129943_j71416716197907_1_alg».proof.Proof.Gen.KernelIdeal.Skeleton
import proofs.«129943_j71416716197907_1_alg».proof.Proof.LibMatmulAt
import proofs.«129943_j71416716197907_1_alg».proof.Proof.Consts
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-- The small positive constant added to a variance before the inverse square root. -/
abbrev eps : EReal := Ideal.ofBits .f32 0x3727C5AC#32

/-- One normalized, scaled, shifted and clipped entry: row `r` of the block, column `k`. -/
abbrev bn (x : Vec Ideal S5000x128 .f32) (μ v g be : Vec Ideal S1x128 .f32) (r : Fin 5000) (k : Fin 128) : EReal :=
  max ((x (ix2 r k) - μ (ix2 0 k)) * Ideal.rsqrt (v (ix2 0 k) + eps) * g (ix2 0 k) + be (ix2 0 k)) 0

/-! ## The dimension numbers of the product

The record contracts the left operand's second axis with the right operand's first and has no batch axis. -/

/-- The dimension numbers contract one axis, -/
theorem dot_rank : dot_S5000x128_S128x128_S5000x128_1_0_0_1_n_n.contr.rank = 1 := rfl
/-- of extent 128. -/
theorem dot_size : dot_S5000x128_S128x128_S5000x128_1_0_0_1_n_n.contr.size ⟨0, by decide⟩ = 128 := rfl

/-- The left operand is read at the result's row, -/
theorem dot_lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- and at the contracted coordinate. -/
theorem dot_lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand is read at the contracted coordinate, -/
theorem dot_rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- and at the result's column. -/
theorem dot_rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a block with the square matrix into a zero accumulator, at one entry. -/
theorem mm_at {φ₁ φ₂ : FTy} (l : FVec Ideal S5000x128 φ₁) (m : FVec Ideal S128x128 φ₂) (r : Fin 5000) (q : Fin 128) :
    matmul dot_S5000x128_S128x128_S5000x128_1_0_0_1_n_n none l m (constant (F := Ideal) S5000x128 .f32 0x00000000#32) (ix2 r q)
      = ∑ k : Fin 128, l (ix2 r k) * m (ix2 k q) :=
  MatmulAt.matmul_zero_at dot_S5000x128_S128x128_S5000x128_1_0_0_1_n_n dot_rank dot_size dot_lhs0 dot_lhs1 dot_rhs0 dot_rhs1 none l m r q

/-! ## A sum over the block's rows

The reduction over the first axis gives a vector of 128 column sums; the cast that follows puts a unit axis in front. -/

/-- The sum over the block's rows, kept as a row: entry `q` is the sum of column `q`. -/
theorem colsum_at (y : FVec Ideal S5000x128 .f32) (q : Fin 128) :
    shapeCast S1x128 (multiReduction (F := Ideal) .add [0] S128 y 0x00000000#32 reduces_S5000x128_S128 (.inl rfl) rfl)
        shapeCasts_S128_S1x128 (ix2 0 q)
      = ∑ r : Fin 5000, y (ix2 r q) := by
  rw [shapeCast_a_1a_apply]
  refine (Ideal.multiReduction_add_single y _ reduces_S5000x128_S128 (.inl rfl) rfl (ix1 q)).trans ?_
  refine Finset.sum_congr rfl fun r _ => congrArg y ?_
  funext a
  match a with
  | ⟨0, _⟩ => rfl
  | ⟨1, _⟩ => rfl

/-- The rows the reset stores are zero. -/
theorem pay_zero0_1 (q : Fin 128) : k0_pay1 (F := Ideal) (ix2 0 q) = 0 := by
  unfold k0_pay1
  exact Gin.Consts.ofBits_zero
theorem pay_zero0_2 (q : Fin 128) : k0_pay2 (F := Ideal) (ix2 0 q) = 0 := by
  unfold k0_pay2
  exact Gin.Consts.ofBits_zero
theorem pay_zero1_3 (q : Fin 128) : k1_pay3 (F := Ideal) (ix2 0 q) = 0 := by
  unfold k1_pay3
  exact Gin.Consts.ofBits_zero
theorem pay_zero1_4 (q : Fin 128) : k1_pay4 (F := Ideal) (ix2 0 q) = 0 := by
  unfold k1_pay4
  exact Gin.Consts.ofBits_zero

/-- The first body's block: the product of the block with the square matrix, plus the bias row. -/
theorem pay_lin (x : Vec Ideal S5000x128 .f32) (w : Vec Ideal S128x128 .f32) (b : Vec Ideal S1x128 .f32)
    (r : Fin 5000) (q : Fin 128) :
    k0_pay3 (F := Ideal) x w b (ix2 r q) = (∑ k : Fin 128, x (ix2 r k) * w (ix2 k q)) + b (ix2 0 q) := by
  unfold k0_pay3
  rw [addf_apply, mm_at, broadcastTo_1b_ab_apply, shapeCast_self, shapeCast_self, shapeCast_self]
  rfl

/-- The running column sums after the first body: what was there plus the block's column sums. -/
theorem pay_sum0 (x : Vec Ideal S5000x128 .f32) (w : Vec Ideal S128x128 .f32) (b : Vec Ideal S1x128 .f32)
    (acc : Vec Ideal S1x128 .f32) (q : Fin 128) :
    k0_pay4 (F := Ideal) x w b acc (ix2 0 q)
      = acc (ix2 0 q) + ∑ r : Fin 5000, k0_pay3 (F := Ideal) x w b (ix2 r q) := by
  unfold k0_pay4
  rw [addf_apply, colsum_at, shapeCast_self]

/-- The running column sums of squares after the first body. -/
theorem pay_sq0 (x : Vec Ideal S5000x128 .f32) (w : Vec Ideal S128x128 .f32) (b : Vec Ideal S1x128 .f32)
    (acc : Vec Ideal S1x128 .f32) (q : Fin 128) :
    k0_pay5 (F := Ideal) x w b acc (ix2 0 q)
      = acc (ix2 0 q) + ∑ r : Fin 5000, k0_pay3 (F := Ideal) x w b (ix2 r q) * k0_pay3 (F := Ideal) x w b (ix2 r q) := by
  unfold k0_pay5
  rw [addf_apply, colsum_at, shapeCast_self]
  rfl

/-- The second body's block: normalize and clip, multiply by the square matrix, add the bias row. -/
theorem pay_bnlin (x : Vec Ideal S5000x128 .f32) (μ v g be : Vec Ideal S1x128 .f32) (w : Vec Ideal S128x128 .f32)
    (b : Vec Ideal S1x128 .f32) (r : Fin 5000) (q : Fin 128) :
    k1_pay5 (F := Ideal) x μ v g be w b (ix2 r q)
      = (∑ k : Fin 128, bn x μ v g be r k * w (ix2 k q)) + b (ix2 0 q) := by
  unfold k1_pay5
  rw [addf_apply, mm_at, broadcastTo_1b_ab_apply]
  refine congrArg₂ (· + ·) (Finset.sum_congr rfl fun k _ => congrArg₂ (· * ·) ?_ ?_) ?_
  · rw [truncf_apply, maximumf_apply, addf_apply, mulf_apply, mulf_apply, subf_apply]
    simp only [broadcastTo_1b_ab_apply, shapeCast_self, broadcast_apply]
    exact congrArg (max _) Gin.Consts.ofBits_zero
  · rw [truncf_apply, shapeCast_self]
  · rw [shapeCast_self]

/-- The running column sums after the second body. -/
theorem pay_sum1 (y : FVec Ideal S5000x128 .f32) (acc : Vec Ideal S1x128 .f32) (q : Fin 128) :
    k1_pay1 (F := Ideal) y acc (ix2 0 q) = acc (ix2 0 q) + ∑ r : Fin 5000, y (ix2 r q) := by
  unfold k1_pay1
  rw [addf_apply, colsum_at, shapeCast_self]

/-- The running column sums of squares after the second body. -/
theorem pay_sq1 (y : FVec Ideal S5000x128 .f32) (acc : Vec Ideal S1x128 .f32) (q : Fin 128) :
    k1_pay2 (F := Ideal) y acc (ix2 0 q) = acc (ix2 0 q) + ∑ r : Fin 5000, y (ix2 r q) * y (ix2 r q) := by
  unfold k1_pay2
  rw [addf_apply, colsum_at, shapeCast_self]
  rfl

/-- The third body's block: normalize and clip, multiply by the square matrix, clip at zero. -/
theorem pay_out (x : Vec Ideal S5000x128 .f32) (μ v g be : Vec Ideal S1x128 .f32) (w : Vec Ideal S128x128 .f32)
    (r : Fin 5000) (q : Fin 128) :
    k2_pay1 (F := Ideal) x μ v g be w (ix2 r q) = max (∑ k : Fin 128, bn x μ v g be r k * w (ix2 k q)) 0 := by
  unfold k2_pay1
  rw [maximumf_apply, mm_at, broadcast_apply]
  refine congrArg₂ max (Finset.sum_congr rfl fun k _ => congrArg₂ (· * ·) ?_ ?_) Gin.Consts.ofBits_zero
  · rw [truncf_apply, maximumf_apply, addf_apply, mulf_apply, mulf_apply, subf_apply]
    simp only [broadcastTo_1b_ab_apply, shapeCast_self, broadcast_apply]
    exact congrArg (max _) Gin.Consts.ofBits_zero
  · rw [truncf_apply, shapeCast_self]

end Cert.KernelIdeal.Pay

end
-- ==== Proof.Spec.lean ====
/-
  The mathematics of the layer, over the extended reals, on plain matrices.

  A node-feature matrix `h0` goes through three affine maps. After each of the first two the columns are
  normalized by their mean and variance over all rows (batch normalization), scaled, shifted and clipped at
  zero; the last product is clipped at zero. The two programs differ in ONE place: one takes a column's
  variance as the mean of the squares minus the square of the mean (`varK`), the other as the mean of the squared
  deviations (`varR`). For columns of real numbers the two are the same number.
-/
import Idealize.ShloMosaic.PureOps.Ideal

noncomputable section

namespace Gin

open Idealize.ShloMosaic

/-- An `A × B` matrix of extended reals, by row and column. -/
abbrev Mat (A B : Nat) := Fin A → Fin B → EReal
/-- A row of `B` extended reals. -/
abbrev Row (B : Nat) := Fin B → EReal

variable {A : Nat}

/-- The matrix product with a square matrix of side 128. -/
def mm (a : Mat A 128) (w : Mat 128 128) : Mat A 128 := fun p q => ∑ k : Fin 128, a p k * w k q
/-- The affine map: the product plus a row added to every row. -/
def lin (a : Mat A 128) (w : Mat 128 128) (b : Row 128) : Mat A 128 := fun p q => mm a w p q + b q
/-- The sum of each column. -/
def csum (h : Mat A 128) : Row 128 := fun q => ∑ p : Fin A, h p q
/-- The sum of the squares of each column. -/
def csq (h : Mat A 128) : Row 128 := fun q => ∑ p : Fin A, h p q * h p q
/-- The column sums divided by `n`. -/
def mean (n : EReal) (h : Mat A 128) : Row 128 := fun q => Ideal.div (csum h q) n
/-- The variance as mean of squares minus squared mean. -/
def varK (n : EReal) (h : Mat A 128) : Row 128 := fun q => Ideal.div (csq h q) n - mean n h q * mean n h q
/-- The variance as mean of squared deviations from the mean. -/
def varR (n : EReal) (h : Mat A 128) : Row 128 :=
  fun q => Ideal.div (∑ p : Fin A, (h p q - mean n h q) * (h p q - mean n h q)) n
/-- Normalize by `μ` and `v`, scale by `g`, shift by `be`, clip at zero. -/
def bnrelu (eps : EReal) (h : Mat A 128) (μ v g be : Row 128) : Mat A 128 :=
  fun p q => max ((h p q - μ q) * Ideal.rsqrt (v q + eps) * g q + be q) 0
/-- Clip at zero. -/
def relu (h : Mat A 128) : Mat A 128 := fun p q => max (h p q) 0

/-- The whole layer, the variance taken by `var`. -/
def layer (var : EReal → Mat A 128 → Row 128) (n eps : EReal) (h0 : Mat A 128) (w1 w2 w3 : Mat 128 128)
    (b1 g1 be1 b2 g2 be2 : Row 128) : Mat A 128 :=
  let h1 := lin h0 w1 b1
  let a1 := bnrelu eps h1 (mean n h1) (var n h1) g1 be1
  let h2 := lin a1 w2 b2
  let a2 := bnrelu eps h2 (mean n h2) (var n h2) g2 be2
  relu (mm a2 w3)

/-- Every entry is a real number. -/
def MatReal {B : Nat} (h : Mat A B) : Prop := ∀ p q, ∃ r : ℝ, h p q = (r : EReal)
/-- Every entry is a real number. -/
def RowReal {B : Nat} (b : Row B) : Prop := ∀ q, ∃ r : ℝ, b q = (r : EReal)

/-- A finite sum of real numbers, taken among the extended reals, is the real sum. -/
theorem coe_sum {ι : Type} (s : Finset ι) (f : ι → ℝ) :
    (∑ i ∈ s, (f i : EReal)) = ((∑ i ∈ s, f i : ℝ) : EReal) := by
  classical
  refine Finset.induction_on s (by simp) ?_
  intro a s ha ih
  rw [Finset.sum_insert ha, Finset.sum_insert ha, ih, EReal.coe_add]

/-- A matrix of real entries is the image of a real matrix. -/
theorem MatReal.eq_coe {B : Nat} {h : Mat A B} (hh : MatReal h) :
    ∃ f : Fin A → Fin B → ℝ, h = fun p q => (f p q : EReal) := by
  choose f hf using hh
  exact ⟨f, funext fun p => funext fun q => hf p q⟩

/-- A row of real entries is the image of a real row. -/
theorem RowReal.eq_coe {B : Nat} {b : Row B} (hb : RowReal b) :
    ∃ f : Fin B → ℝ, b = fun q => (f q : EReal) := by
  choose f hf using hb
  exact ⟨f, funext fun q => hf q⟩

/-- In the reals: the mean of the squares minus the squared mean is the mean of the squared deviations.
    With `S = Σ g` and `m = S / A`: `Σ (g − m)² = Σ g² − 2 m S + A m²`, and `S = A m`. -/
theorem var_real (hA : 0 < A) (g : Fin A → ℝ) :
    (∑ p : Fin A, g p * g p) * (1 / (A : ℝ))
        - ((∑ p : Fin A, g p) * (1 / (A : ℝ))) * ((∑ p : Fin A, g p) * (1 / (A : ℝ)))
      = (∑ p : Fin A, (g p - (∑ p : Fin A, g p) * (1 / (A : ℝ))) * (g p - (∑ p : Fin A, g p) * (1 / (A : ℝ))))
          * (1 / (A : ℝ)) := by
  have hA' : (A : ℝ) ≠ 0 := by exact_mod_cast hA.ne'
  have key : ∀ m : ℝ, ∑ p : Fin A, (g p - m) * (g p - m)
      = (∑ p : Fin A, g p * g p) - 2 * m * (∑ p : Fin A, g p) + A * (m * m) := by
    intro m
    have hexp : ∀ p : Fin A, (g p - m) * (g p - m) = g p * g p - 2 * m * g p + m * m := fun p => by ring
    simp only [hexp, Finset.sum_add_distrib, Finset.sum_sub_distrib, ← Finset.mul_sum, Finset.sum_const,
      Finset.card_univ, Fintype.card_fin, nsmul_eq_mul]
    ring
  rw [key]
  field_simp
  ring

/-- The column mean of a real matrix, as a real. -/
theorem mean_coe (hA : 0 < A) (f : Fin A → Fin 128 → ℝ) (q : Fin 128) :
    mean ((A : ℝ) : EReal) (fun p q => (f p q : EReal)) q
      = (((∑ p : Fin A, f p q) * (1 / (A : ℝ)) : ℝ) : EReal) := by
  have hA' : (A : ℝ) ≠ 0 := by exact_mod_cast hA.ne'
  simp only [mean, csum, Ideal.div_coe hA', coe_sum, ← EReal.coe_mul]

/-- The first variance of a real matrix, as a real. -/
theorem varK_coe (hA : 0 < A) (f : Fin A → Fin 128 → ℝ) (q : Fin 128) :
    varK ((A : ℝ) : EReal) (fun p q => (f p q : EReal)) q
      = (((∑ p : Fin A, f p q * f p q) * (1 / (A : ℝ))
          - ((∑ p : Fin A, f p q) * (1 / (A : ℝ))) * ((∑ p : Fin A, f p q) * (1 / (A : ℝ))) : ℝ) : EReal) := by
  have hA' : (A : ℝ) ≠ 0 := by exact_mod_cast hA.ne'
  simp only [varK, csq, mean_coe hA, Ideal.div_coe hA', ← EReal.coe_mul, coe_sum, ← EReal.coe_sub]

/-- The second variance of a real matrix, as a real. -/
theorem varR_coe (hA : 0 < A) (f : Fin A → Fin 128 → ℝ) (q : Fin 128) :
    varR ((A : ℝ) : EReal) (fun p q => (f p q : EReal)) q
      = (((∑ p : Fin A, (f p q - (∑ p : Fin A, f p q) * (1 / (A : ℝ)))
            * (f p q - (∑ p : Fin A, f p q) * (1 / (A : ℝ)))) * (1 / (A : ℝ)) : ℝ) : EReal) := by
  have hA' : (A : ℝ) ≠ 0 := by exact_mod_cast hA.ne'
  simp only [varR, mean_coe hA, Ideal.div_coe hA', ← EReal.coe_sub, ← EReal.coe_mul, coe_sum]

/-- For a matrix of real numbers with `A > 0` rows and `n = A`, the two variances agree. -/
theorem varK_eq_varR (n : EReal) (hn : n = ((A : ℝ) : EReal)) (hA : 0 < A) (h : Mat A 128) (hh : MatReal h) :
    varK n h = varR n h := by
  obtain ⟨f, rfl⟩ := hh.eq_coe
  subst hn
  funext q
  rw [varK_coe hA, varR_coe hA, var_real hA (fun p => f p q)]

/-- Clipping a real at zero gives a real. -/
theorem real_max0 {x : EReal} (hx : ∃ r : ℝ, x = (r : EReal)) : ∃ r : ℝ, max x 0 = (r : EReal) := by
  obtain ⟨r, rfl⟩ := hx
  rcases le_total ((r : ℝ) : EReal) 0 with h | h
  · exact ⟨0, by rw [max_eq_right h]; rfl⟩
  · exact ⟨r, by rw [max_eq_left h]⟩

/-- The affine map of real matrices and a real row is real. -/
theorem matReal_lin {a : Mat A 128} {w : Mat 128 128} {b : Row 128}
    (ha : MatReal a) (hw : MatReal w) (hb : RowReal b) : MatReal (lin a w b) := by
  obtain ⟨fa, rfl⟩ := ha.eq_coe
  obtain ⟨fw, rfl⟩ := hw.eq_coe
  obtain ⟨fb, rfl⟩ := hb.eq_coe
  intro p q
  exact ⟨(∑ k : Fin 128, fa p k * fw k q) + fb q, by
    simp only [lin, mm, ← EReal.coe_mul, coe_sum, ← EReal.coe_add]⟩

/-- The column means of a real matrix are real. -/
theorem rowReal_mean {n : EReal} (hn : n = ((A : ℝ) : EReal)) (hA : 0 < A) {h : Mat A 128} (hh : MatReal h) :
    RowReal (mean n h) := by
  obtain ⟨f, rfl⟩ := hh.eq_coe
  subst hn
  intro q
  exact ⟨_, mean_coe hA f q⟩

/-- The second variance of a real matrix is a real that is not negative: a sum of squares over `A > 0`. -/
theorem varR_real_nonneg {n : EReal} (hn : n = ((A : ℝ) : EReal)) (hA : 0 < A) {h : Mat A 128}
    (hh : MatReal h) (q : Fin 128) : ∃ r : ℝ, 0 ≤ r ∧ varR n h q = (r : EReal) := by
  obtain ⟨f, rfl⟩ := hh.eq_coe
  subst hn
  refine ⟨_, ?_, varR_coe hA f q⟩
  exact mul_nonneg (Finset.sum_nonneg fun p _ => mul_self_nonneg _) (by positivity)

/-- Normalizing a real matrix by real means, real variances that are not negative and a positive real `eps`,
    then scaling, shifting and clipping, gives a real matrix: the reciprocal root is taken of a positive real. -/
theorem matReal_bnrelu {eps : EReal} (heps : ∃ e : ℝ, 0 < e ∧ eps = (e : EReal)) {h : Mat A 128}
    {μ v g be : Row 128} (hh : MatReal h) (hμ : RowReal μ)
    (hv : ∀ q, ∃ r : ℝ, 0 ≤ r ∧ v q = (r : EReal)) (hg : RowReal g) (hbe : RowReal be) :
    MatReal (bnrelu eps h μ v g be) := by
  obtain ⟨e, he, rfl⟩ := heps
  intro p q
  obtain ⟨x, hx⟩ := hh p q
  obtain ⟨m, hm⟩ := hμ q
  obtain ⟨r, hr0, hr⟩ := hv q
  obtain ⟨c, hc⟩ := hg q
  obtain ⟨d, hd⟩ := hbe q
  have hpos : 0 < r + e := add_pos_of_nonneg_of_pos hr0 he
  have hrs : Ideal.rsqrt (v q + (e : EReal)) = (((Real.sqrt (r + e))⁻¹ : ℝ) : EReal) := by
    rw [hr, ← EReal.coe_add, Ideal.rsqrt_coe, if_neg (not_lt.mpr hpos.le), if_neg hpos.ne']
  simp only [bnrelu]
  apply real_max0
  exact ⟨(x - m) * (Real.sqrt (r + e))⁻¹ * c + d, by
    rw [hrs, hx, hm, hc, hd]
    simp only [← EReal.coe_sub, ← EReal.coe_mul, ← EReal.coe_add]⟩

/-- The layer is the same with either variance, on real inputs, for a positive real `eps`. -/
theorem layer_varK_eq_varR (n eps : EReal) (hn : n = ((A : ℝ) : EReal)) (hA : 0 < A)
    (heps : ∃ e : ℝ, 0 < e ∧ eps = (e : EReal))
    (h0 : Mat A 128) (w1 w2 w3 : Mat 128 128) (b1 g1 be1 b2 g2 be2 : Row 128)
    (hh0 : MatReal h0) (hw1 : MatReal w1) (hw2 : MatReal w2)
    (hb1 : RowReal b1) (hg1 : RowReal g1) (hbe1 : RowReal be1) (hb2 : RowReal b2) :
    layer varK n eps h0 w1 w2 w3 b1 g1 be1 b2 g2 be2 = layer varR n eps h0 w1 w2 w3 b1 g1 be1 b2 g2 be2 := by
  have h1R : MatReal (lin h0 w1 b1) := matReal_lin hh0 hw1 hb1
  have e1 : varK n (lin h0 w1 b1) = varR n (lin h0 w1 b1) := varK_eq_varR n hn hA _ h1R
  have a1R : MatReal (bnrelu eps (lin h0 w1 b1) (mean n (lin h0 w1 b1)) (varR n (lin h0 w1 b1)) g1 be1) :=
    matReal_bnrelu heps h1R (rowReal_mean hn hA h1R) (varR_real_nonneg hn hA h1R) hg1 hbe1
  have h2R := matReal_lin a1R hw2 hb2
  have e2 := varK_eq_varR n hn hA _ h2R
  simp only [layer]
  rw [e1, e2]

end Gin

end
-- ==== Proof.Reg0.lean ====
/-
  The first kernel region, read as values: twenty blocks of 5000 rows each go through the affine map; the
  result array is the affine map of the whole input, and the two one-row outputs, reset at the first block and
  added to at every block, end at the column sums and the column sums of squares of that result.
-/
import proofs.«129943_j71416716197907_1_alg».proof.Proof.Gen.KernelIdeal.Frame
import proofs.«129943_j71416716197907_1_alg».proof.Proof.Pay
import proofs.«129943_j71416716197907_1_alg».proof.Proof.Spec
import Idealize.ShloMosaic.Lib.Pipeline.Value
import Idealize.ShloMosaic.Lib.ValueIdx
import Idealize.ShloMosaic.Lib.Tactic
import Mathlib.Algebra.BigOperators.Fin
import Mathlib.Data.Fintype.BigOperators
import Mathlib.Logic.Equiv.Fin.Basic

set_option maxRecDepth 16384

noncomputable section

namespace Cert.KernelIdeal.Reg0

open Cert.KernelIdeal Cert.KernelIdeal.Gen Idealize.ShloMosaic Idealize.ShloMosaic.TcCoe Idealize.SL.Sem
open Idealize.ShloMosaic.ValueIdx
open Idealize.ShloMosaic.Pipeline (Dat)

/-! ## What the body leaves in each output's block, case by case (for any float values) -/

section Pieces
variable {F : FTy → Type} [FloatOps F]

/-- The offset of every load and store of the body: the block's origin. -/
theorem hz : (![0, 0] : Fin 2 → Nat) = fun _ => 0 := funext fun a => by fin_cases a <;> rfl

/-- Away from the first block the body leaves in the result's block the affine payload of what it loaded. -/
theorem out_B_3 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond0_0 i)
    (x0 : Vec F S5000x128 .f32) (x1 : Vec F S128x128 .f32) (x2 : Vec F S1x128 .f32) (xo4 xo5 : Vec F S1x128 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  sl_unfold_words
  rw [View.canon_unit_zero hz]
  simp only [View.readAt_eq_ld, h1.read_unread, h2.read_unread, h3.read_unread, View.ld_unit_zero (S := S5000x128) hz,
    View.ld_unit_zero (S := S128x128) hz, View.ld_unit_zero (S := S1x128) hz]

/-- Away from the first block the running row of sums gains the block's column sums. -/
theorem out_B_4 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond0_0 i)
    (x0 : Vec F S5000x128 .f32) (x1 : Vec F S128x128 .f32) (x2 : Vec F S1x128 .f32) (xo4 xo5 : Vec F S1x128 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  sl_unfold_words
  rw [View.canon_unit_zero hz]
  simp only [View.readAt_eq_ld, h1.read_unread, h2.read_unread, h3.read_unread, h5.read_unread, View.ld_unit_zero (S := S5000x128) hz,
    View.ld_unit_zero (S := S128x128) hz, View.ld_unit_zero (S := S1x128) hz]

/-- Away from the first block the running row of sums of squares gains the block's. -/
theorem out_B_5 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond0_0 i)
    (x0 : Vec F S5000x128 .f32) (x1 : Vec F S128x128 .f32) (x2 : Vec F S1x128 .f32) (xo4 xo5 : Vec F S1x128 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  sl_unfold_words
  rw [View.canon_unit_zero hz]
  simp only [View.readAt_eq_ld, h1.read_unread, h2.read_unread, h3.read_unread, h6.read_unread, View.ld_unit_zero (S := S5000x128) hz,
    View.ld_unit_zero (S := S128x128) hz, View.ld_unit_zero (S := S1x128) hz]

/-- At the first block too the result's block is the affine payload. -/
theorem out_A_3 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond0_0 i)
    (x0 : Vec F S5000x128 .f32) (x1 : Vec F S128x128 .f32) (x2 : Vec F S1x128 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_unit_zero hz]
  simp only [View.readAt_eq_ld, h1.read_unread, h2.read_unread, h3.read_unread, View.ld_unit_zero (S := S5000x128) hz,
    View.ld_unit_zero (S := S128x128) hz, View.ld_unit_zero (S := S1x128) hz]

/-- At the first block the row of sums is reset, then gains the block's column sums. -/
theorem out_A_4 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond0_0 i)
    (x0 : Vec F S5000x128 .f32) (x1 : Vec F S128x128 .f32) (x2 : Vec F S1x128 .f32) :
    out0_A_4 c i a1 h1 a2 h2 a3 h3 a4 h4 a5 h5 a6 h6 hc x0 x1 x2 = k0_pay4 x0 x1 x2 k0_pay1 := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S5000x128) hz,
    View.ld_unit_zero (S := S128x128) hz, View.ld_unit_zero (S := S1x128) hz]

/-- At the first block the row of sums of squares is reset, then gains the block's. -/
theorem out_A_5 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond0_0 i)
    (x0 : Vec F S5000x128 .f32) (x1 : Vec F S128x128 .f32) (x2 : Vec F S1x128 .f32) :
    out0_A_5 c i a1 h1 a2 h2 a3 h3 a4 h4 a5 h5 a6 h6 hc x0 x1 x2 = k0_pay5 x0 x1 x2 k0_pay2 := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S5000x128) hz,
    View.ld_unit_zero (S := S128x128) hz, View.ld_unit_zero (S := S1x128) hz]

end Pieces

-- the buffer contents when the region is entered
variable (V : (c : Dev nD) → (b : Ref sig .tc) → Buf (Elt Ideal) ((c : Thread nD τ).loc b))

/-- The matrix entering the affine map. -/
abbrev a (c : Dev nD) : Gin.Mat 100000 128 := fun p k => (V c main_v16 : Vec Ideal S100000x128 .f32) (ix2 p k)
/-- The square matrix it is multiplied by. -/
abbrev w (c : Dev nD) : Gin.Mat 128 128 := fun k q => (V c main_v17 : Vec Ideal S128x128 .f32) (ix2 k q)
/-- The bias row. -/
abbrev b (c : Dev nD) : Gin.Row 128 := fun q => (V c main_v20 : Vec Ideal S1x128 .f32) (ix2 0 q)

/-! ## The blocks the body loads, as parts of the arrays -/

/-- Block `t` of the input, and the two small operands as the body finds them at point `t`. -/
abbrev xblk (c : Dev nD) (t : Fin cfg0.N) : Vec Ideal S5000x128 .f32 := iblk0 V c 0 t
abbrev wblk (c : Dev nD) (t : Fin cfg0.N) : Vec Ideal S128x128 .f32 := iblk0 V c 1 t
abbrev bblk (c : Dev nD) (t : Fin cfg0.N) : Vec Ideal S1x128 .f32 := iblk0 V c 2 t

/-- The block index of every window at every point: the two long arrays move down one block of rows per point,
    the small operands and the one-row outputs stay at block (0, 0). -/
theorem idx_facts : ∀ t : Fin cfg0.N, win0_0.index t 0 = t.val ∧ win0_0.index t 1 = 0
    ∧ win0_1.index t 0 = 0 ∧ win0_1.index t 1 = 0 ∧ win0_2.index t 0 = 0 ∧ win0_2.index t 1 = 0
    ∧ win0_3.index t 0 = t.val ∧ win0_3.index t 1 = 0
    ∧ win0_4.index t 0 = 0 ∧ win0_4.index t 1 = 0 ∧ win0_5.index t 0 = 0 ∧ win0_5.index t 1 = 0 :=
  (by decide +kernel : ∀ t : Fin grid0.N, _)

/-- Row `r` of block `t` is row `5000 t + r` of the long arrays. -/
def row (t : Fin cfg0.N) (r : Fin 5000) : Fin 100000 :=
  ⟨5000 * t.val + r.val, by have := t.isLt; have hN : cfg0.N = 20 := N_0; omega⟩

theorem xblk_apply (c : Dev nD) (t : Fin cfg0.N) (r : Fin 5000) (k : Fin 128) :
    xblk V c t (ix2 r k) = a V c (row t r) k := by
  obtain ⟨e0, e1, -⟩ := idx_facts t
  show V c main_v16 (((cfg0.win 0).blk t).view.emb (ix2 r k)) = V c main_v16 (ix2 (row t r) k)
  congr 1
  funext d; apply Fin.ext
  match d with
  | ⟨0, _⟩ => show win0_0.index t 0 * 5000 + 1 * r.val = 5000 * t.val + r.val; rw [e0]; omega
  | ⟨1, _⟩ => show win0_0.index t 1 * 128 + 1 * k.val = k.val; rw [e1]; omega

theorem wblk_apply (c : Dev nD) (t : Fin cfg0.N) (k q : Fin 128) :
    wblk V c t (ix2 k q) = w V c k q := by
  obtain ⟨-, -, e0, e1, -⟩ := idx_facts t
  show V c main_v17 (((cfg0.win 1).blk t).view.emb (ix2 k q)) = V c main_v17 (ix2 k q)
  congr 1
  funext d; apply Fin.ext
  match d with
  | ⟨0, _⟩ => show win0_1.index t 0 * 128 + 1 * k.val = k.val; rw [e0]; omega
  | ⟨1, _⟩ => show win0_1.index t 1 * 128 + 1 * q.val = q.val; rw [e1]; omega

theorem bblk_apply (c : Dev nD) (t : Fin cfg0.N) (q : Fin 128) :
    bblk V c t (ix2 0 q) = b V c q := by
  obtain ⟨-, -, -, -, e0, e1, -⟩ := idx_facts t
  show V c main_v20 (((cfg0.win 2).blk t).view.emb (ix2 0 q)) = V c main_v20 (ix2 0 q)
  congr 1
  funext d; apply Fin.ext
  match d with
  | ⟨0, _⟩ => show win0_2.index t 0 * 1 + 1 * 0 = 0; rw [e0]
  | ⟨1, _⟩ => show win0_2.index t 1 * 128 + 1 * q.val = q.val; rw [e1]; omega

/-! ## The running rows, point by point -/

/-- The affine map of the whole input. -/
abbrev H (c : Dev nD) : Gin.Mat 100000 128 := Gin.lin (a V c) (w V c) (b V c)

/-- What the body stores in the result's block at point `t` is block `t` of the affine map of the whole input. -/
theorem hblk_apply (c : Dev nD) (t : Fin cfg0.N) (r : Fin 5000) (q : Fin 128) :
    k0_pay3 (F := Ideal) (xblk V c t) (wblk V c t) (bblk V c t) (ix2 r q) = H V c (row t r) q := by
  rw [Pay.pay_lin]
  simp only [xblk_apply, wblk_apply, bblk_apply]
  rfl

/-- The column sums of block `t` of the affine map (nothing past the last block). -/
def bsum (c : Dev nD) (t : ℕ) (q : Fin 128) : EReal :=
  if ht : t < cfg0.N then ∑ r : Fin 5000, H V c (row ⟨t, ht⟩ r) q else 0
/-- The column sums of squares of block `t` of the affine map (nothing past the last block). -/
def bsq (c : Dev nD) (t : ℕ) (q : Fin 128) : EReal :=
  if ht : t < cfg0.N then ∑ r : Fin 5000, H V c (row ⟨t, ht⟩ r) q * H V c (row ⟨t, ht⟩ r) q else 0

theorem bsum_of_lt (c : Dev nD) (t : Fin cfg0.N) (q : Fin 128) :
    bsum V c t.val q = ∑ r : Fin 5000, H V c (row t r) q := dif_pos t.isLt
theorem bsq_of_lt (c : Dev nD) (t : Fin cfg0.N) (q : Fin 128) :
    bsq V c t.val q = ∑ r : Fin 5000, H V c (row t r) q * H V c (row t r) q := dif_pos t.isLt

/-- After point `n` the first one-row output holds the column sums of blocks `0 … n`: reset and one block at the
    first point, one more block at each later point. -/
theorem inv4 (c : Dev nD) : ∀ (n : ℕ) (hn : n < cfg0.N) (q : Fin 128),
    (outsAt0 V c n hn).2.1 (ix2 0 q) = ∑ t ∈ Finset.range (n + 1), bsum V c t q
  | 0, hn, q => by
    rw [outsAt0_A V c ⟨0, hn⟩ rfl]
    dsimp only
    rw [out_A_4, Pay.pay_sum0, Pay.pay_zero0_1, zero_add, Finset.sum_range_one, bsum_of_lt V c ⟨0, hn⟩ q]
    exact Finset.sum_congr rfl fun r _ => hblk_apply V c ⟨0, hn⟩ r q
  | n + 1, hn, q => by
    have hN : cfg0.N = 20 := N_0
    have hB : ¬(⟨n + 1, hn⟩ : Fin cfg0.N).val % 20 = 0 := by dsimp only; omega
    rw [outsAt0_B V c ⟨n + 1, hn⟩ hB]
    dsimp only
    rw [out_B_4, Pay.pay_sum0, Finset.sum_range_succ _ (n + 1), bsum_of_lt V c ⟨n + 1, hn⟩ q]
    show (outsAt0 V c n _).2.1 (ix2 0 q) + _ = _
    rw [inv4 c n]
    congr 1
    exact Finset.sum_congr rfl fun r _ => hblk_apply V c ⟨n + 1, hn⟩ r q

/-- After point `n` the second one-row output holds the column sums of squares of blocks `0 … n`. -/
theorem inv5 (c : Dev nD) : ∀ (n : ℕ) (hn : n < cfg0.N) (q : Fin 128),
    (outsAt0 V c n hn).2.2 (ix2 0 q) = ∑ t ∈ Finset.range (n + 1), bsq V c t q
  | 0, hn, q => by
    rw [outsAt0_A V c ⟨0, hn⟩ rfl]
    dsimp only
    rw [out_A_5, Pay.pay_sq0, Pay.pay_zero0_2, zero_add, Finset.sum_range_one, bsq_of_lt V c ⟨0, hn⟩ q]
    exact Finset.sum_congr rfl fun r _ => by rw [hblk_apply V c ⟨0, hn⟩ r q]
  | n + 1, hn, q => by
    have hN : cfg0.N = 20 := N_0
    have hB : ¬(⟨n + 1, hn⟩ : Fin cfg0.N).val % 20 = 0 := by dsimp only; omega
    rw [outsAt0_B V c ⟨n + 1, hn⟩ hB]
    dsimp only
    rw [out_B_5, Pay.pay_sq0, Finset.sum_range_succ _ (n + 1), bsq_of_lt V c ⟨n + 1, hn⟩ q]
    show (outsAt0 V c n _).2.2 (ix2 0 q) + _ = _
    rw [inv5 c n]
    congr 1
    exact Finset.sum_congr rfl fun r _ => by rw [hblk_apply V c ⟨n + 1, hn⟩ r q]

/-! ## Blocks to arrays -/

/-- At every point the result's block holds the affine payload of the blocks loaded there. -/
theorem out3_eq (c : Dev nD) (t : Fin cfg0.N) :
    (outsAt0 V c t.val t.isLt).1 = k0_pay3 (F := Ideal) (xblk V c t) (wblk V c t) (bblk V c t) := by
  by_cases h0 : t.val % 20 = 0
  · rw [outsAt0_A V c t h0]
    dsimp only
    rw [out_A_3]
  · rw [outsAt0_B V c t h0]
    dsimp only
    rw [out_B_3]

/-- What point `t` writes back to the result array is block `t` of the affine map of the whole input. -/
theorem flushed3_eq (c : Dev nD) (t : Fin cfg0.N) :
    (dat0 V c).flushed 3 t
      = ((cfg0.win 3).blk t).view.read (Elt Ideal) (fun i : S100000x128.Idx => H V c (i 0) (i 1)) := by
  show (cfg0.win 3).cut (grid0.coords t) ((dat0 V c).after 3 t) = _
  rw [after0_3, out3_eq]
  obtain ⟨-, -, -, -, -, -, e0, e1, -⟩ := idx_facts t
  funext j
  obtain ⟨r, q, rfl⟩ : ∃ (r : Fin 5000) (q : Fin 128), j = ix2 r q := ⟨j 0, j 1, eq_ix2 j⟩
  show k0_pay3 (F := Ideal) (xblk V c t) (wblk V c t) (bblk V c t) (ix2 r q)
    = H V c ((((cfg0.win 3).blk t).view.emb (ix2 r q)) 0) ((((cfg0.win 3).blk t).view.emb (ix2 r q)) 1)
  rw [hblk_apply]
  have h0 : (((cfg0.win 3).blk t).view.emb (ix2 r q)) 0 = row t r :=
    Fin.ext (by show win0_3.index t 0 * 5000 + 1 * r.val = 5000 * t.val + r.val; rw [e0]; omega)
  have h1 : (((cfg0.win 3).blk t).view.emb (ix2 r q)) 1 = q :=
    Fin.ext (by show win0_3.index t 1 * 128 + 1 * q.val = q.val; rw [e1]; omega)
  rw [h0, h1]

/-- An index of the result array is in point `t`'s block iff each coordinate is in the block's range on its axis. -/
theorem mem_blk3 (t : Fin cfg0.N) (i : S100000x128.Idx) :
    i ∈ ((cfg0.win 3).blk t).view.set ↔ ∀ d : Fin 2, win0_3.index t d * S5000x128.size d ≤ (i d).val
      ∧ (i d).val < win0_3.index t d * S5000x128.size d + S5000x128.size d := by
  show i ∈ ((View.whole main_v26_0).slice (win0_3.rect t)).set ↔ _
  rw [View.set_slice_whole, Rect.mem_set_unit]
  exact Iff.rfl

/-- The same for the two one-row arrays. -/
theorem mem_blk4 (t : Fin cfg0.N) (i : S1x128.Idx) :
    i ∈ ((cfg0.win 4).blk t).view.set ↔ ∀ d : Fin 2, win0_4.index t d * S1x128.size d ≤ (i d).val
      ∧ (i d).val < win0_4.index t d * S1x128.size d + S1x128.size d := by
  show i ∈ ((View.whole main_v26_1).slice (win0_4.rect t)).set ↔ _
  rw [View.set_slice_whole, Rect.mem_set_unit]
  exact Iff.rfl
theorem mem_blk5 (t : Fin cfg0.N) (i : S1x128.Idx) :
    i ∈ ((cfg0.win 5).blk t).view.set ↔ ∀ d : Fin 2, win0_5.index t d * S1x128.size d ≤ (i d).val
      ∧ (i d).val < win0_5.index t d * S1x128.size d + S1x128.size d := by
  show i ∈ ((View.whole main_v26_2).slice (win0_5.rect t)).set ↔ _
  rw [View.set_slice_whole, Rect.mem_set_unit]
  exact Iff.rfl

/-- A sum over the 100000 rows is the sum over the 20 blocks of the sums over each block's 5000 rows. -/
theorem sum_blocks (f : Fin 100000 → EReal) :
    ∑ p : Fin 100000, f p
      = ∑ t : Fin 20, ∑ r : Fin 5000, f ⟨5000 * t.val + r.val, by have := t.isLt; have := r.isLt; omega⟩ := by
  rw [← Fintype.sum_prod_type']
  refine (Fintype.sum_equiv (finProdFinEquiv (m := 20) (n := 5000)) _ _ fun p => ?_).symm
  congr 1
  apply Fin.ext
  show 5000 * p.1.val + p.2.val = p.2.val + 5000 * p.1.val
  omega

/-- All twenty blocks' column sums together are the column sums of the whole. -/
theorem total_sum (c : Dev nD) (q : Fin 128) :
    ∑ t ∈ Finset.range 20, bsum V c t q = Gin.csum (H V c) q := by
  have hN : cfg0.N = 20 := N_0
  show _ = ∑ p : Fin 100000, H V c p q
  rw [sum_blocks (fun p => H V c p q), Finset.sum_range]
  refine Finset.sum_congr rfl fun t _ => ?_
  have ht : t.val < cfg0.N := by have := t.isLt; omega
  rw [bsum_of_lt V c ⟨t.val, ht⟩ q]
  rfl

/-- All twenty blocks' column sums of squares together are those of the whole. -/
theorem total_sq (c : Dev nD) (q : Fin 128) :
    ∑ t ∈ Finset.range 20, bsq V c t q = Gin.csq (H V c) q := by
  have hN : cfg0.N = 20 := N_0
  show _ = ∑ p : Fin 100000, H V c p q * H V c p q
  rw [sum_blocks (fun p => H V c p q * H V c p q), Finset.sum_range]
  refine Finset.sum_congr rfl fun t _ => ?_
  have ht : t.val < cfg0.N := by have := t.isLt; omega
  rw [bsq_of_lt V c ⟨t.val, ht⟩ q]
  rfl

/-- A one-row array whose entries are `g`, read through any point's block of its window, is the row `g`; so a
    staging row holding `g` writes back that array's block. -/
theorem flush_row4 (g : Fin 128 → EReal) (t : Fin cfg0.N) (X : Vec Ideal S1x128 .f32) (hX : ∀ q, X (ix2 0 q) = g q) :
    (cfg0.win 4).cut (grid0.coords t) X
      = ((cfg0.win 4).blk t).view.read (Elt Ideal) (fun i : S1x128.Idx => g (i 1)) := by
  obtain ⟨-, -, -, -, -, -, -, -, e0, e1, -⟩ := idx_facts t
  funext j
  obtain ⟨r, q, rfl⟩ : ∃ (r : Fin 1) (q : Fin 128), j = ix2 r q := ⟨j 0, j 1, eq_ix2 j⟩
  obtain rfl : r = 0 := Subsingleton.elim _ _
  show X (ix2 0 q) = g ((((cfg0.win 4).blk t).view.emb (ix2 0 q)) 1)
  have h1 : (((cfg0.win 4).blk t).view.emb (ix2 0 q)) 1 = q :=
    Fin.ext (by show win0_4.index t 1 * 128 + 1 * q.val = q.val; rw [e1]; omega)
  rw [hX, h1]
theorem flush_row5 (g : Fin 128 → EReal) (t : Fin cfg0.N) (X : Vec Ideal S1x128 .f32) (hX : ∀ q, X (ix2 0 q) = g q) :
    (cfg0.win 5).cut (grid0.coords t) X
      = ((cfg0.win 5).blk t).view.read (Elt Ideal) (fun i : S1x128.Idx => g (i 1)) := by
  obtain ⟨-, -, -, -, -, -, -, -, -, -, e0, e1⟩ := idx_facts t
  funext j
  obtain ⟨r, q, rfl⟩ : ∃ (r : Fin 1) (q : Fin 128), j = ix2 r q := ⟨j 0, j 1, eq_ix2 j⟩
  obtain rfl : r = 0 := Subsingleton.elim _ _
  show X (ix2 0 q) = g ((((cfg0.win 5).blk t).view.emb (ix2 0 q)) 1)
  have h1 : (((cfg0.win 5).blk t).view.emb (ix2 0 q)) 1 = q :=
    Fin.ext (by show win0_5.index t 1 * 128 + 1 * q.val = q.val; rw [e1]; omega)
  rw [hX, h1]

/-- The one write-back of the first one-row output, after the last point, writes the column sums of the whole. -/
theorem flushed4_eq (c : Dev nD) (t : Fin cfg0.N) (hf : (cfg0.win 4).flush t = true) :
    (dat0 V c).flushed 4 t
      = ((cfg0.win 4).blk t).view.read (Elt Ideal) (fun i : S1x128.Idx => Gin.csum (H V c) (i 1)) := by
  have hN : cfg0.N = 20 := N_0
  have h19 : t.val = 19 := by have := (flush0_4 t).mp hf; have := t.isLt; omega
  show (cfg0.win 4).cut (grid0.coords t) ((dat0 V c).after 4 t) = _
  rw [after0_4]
  exact flush_row4 (Gin.csum (H V c)) t _ fun q => by
    rw [inv4 V c t.val t.isLt q, h19]
    exact total_sum V c q

/-- The one write-back of the second one-row output writes the column sums of squares of the whole. -/
theorem flushed5_eq (c : Dev nD) (t : Fin cfg0.N) (hf : (cfg0.win 5).flush t = true) :
    (dat0 V c).flushed 5 t
      = ((cfg0.win 5).blk t).view.read (Elt Ideal) (fun i : S1x128.Idx => Gin.csq (H V c) (i 1)) := by
  have hN : cfg0.N = 20 := N_0
  have h19 : t.val = 19 := by have := (flush0_5 t).mp hf; have := t.isLt; omega
  show (cfg0.win 5).cut (grid0.coords t) ((dat0 V c).after 5 t) = _
  rw [after0_5]
  exact flush_row5 (Gin.csq (H V c)) t _ fun q => by
    rw [inv5 V c t.val t.isLt q, h19]
    exact total_sq V c q

/-- The result array after the region: the affine map of the whole input. -/
theorem final3 (c : Dev nD) :
    (dat0 V c).arrAt 3 cfg0.N = (fun i : S100000x128.Idx => Gin.lin (a V c) (w V c) (b V c) (i 0) (i 1)) :=
  (dat0 V c).arrAt_eq_of_cover 3 _ (fun t _ => flushed3_eq V c t) fun i => by
    have hN : cfg0.N = 20 := N_0
    have hi0 : (i 0).val < 100000 := (i 0).isLt
    have hi1 : (i 1).val < 128 := (i 1).isLt
    have ht : (i 0).val / 5000 < cfg0.N := by omega
    obtain ⟨-, -, -, -, -, -, e0, e1, -⟩ := idx_facts ⟨(i 0).val / 5000, ht⟩
    refine ⟨⟨(i 0).val / 5000, ht⟩, flush0_3 _, ?_⟩
    rw [mem_blk3]
    intro d
    match d with
    | ⟨0, _⟩ =>
      show win0_3.index ⟨(i 0).val / 5000, ht⟩ 0 * 5000 ≤ (i 0).val
        ∧ (i 0).val < win0_3.index ⟨(i 0).val / 5000, ht⟩ 0 * 5000 + 5000
      rw [e0]; dsimp only; omega
    | ⟨1, _⟩ =>
      show win0_3.index ⟨(i 0).val / 5000, ht⟩ 1 * 128 ≤ (i 1).val
        ∧ (i 1).val < win0_3.index ⟨(i 0).val / 5000, ht⟩ 1 * 128 + 128
      rw [e1]; omega

/-- The first one-row output after the region: the column sums of the result. -/
theorem final4 (c : Dev nD) :
    (dat0 V c).arrAt 4 cfg0.N = (fun i : S1x128.Idx => Gin.csum (Gin.lin (a V c) (w V c) (b V c)) (i 1)) :=
  (dat0 V c).arrAt_eq_of_cover 4 _ (flushed4_eq V c) fun i => by
    have hN : cfg0.N = 20 := N_0
    have hi0 : (i 0).val < 1 := (i 0).isLt
    have hi1 : (i 1).val < 128 := (i 1).isLt
    have ht : 19 < cfg0.N := by omega
    obtain ⟨-, -, -, -, -, -, -, -, e0, e1, -⟩ := idx_facts ⟨19, ht⟩
    refine ⟨⟨19, ht⟩, (flush0_4 _).mpr rfl, ?_⟩
    rw [mem_blk4]
    intro d
    match d with
    | ⟨0, _⟩ =>
      show win0_4.index ⟨19, ht⟩ 0 * 1 ≤ (i 0).val ∧ (i 0).val < win0_4.index ⟨19, ht⟩ 0 * 1 + 1
      rw [e0]; omega
    | ⟨1, _⟩ =>
      show win0_4.index ⟨19, ht⟩ 1 * 128 ≤ (i 1).val ∧ (i 1).val < win0_4.index ⟨19, ht⟩ 1 * 128 + 128
      rw [e1]; omega

/-- The second one-row output after the region: the column sums of squares of the result. -/
theorem final5 (c : Dev nD) :
    (dat0 V c).arrAt 5 cfg0.N = (fun i : S1x128.Idx => Gin.csq (Gin.lin (a V c) (w V c) (b V c)) (i 1)) :=
  (dat0 V c).arrAt_eq_of_cover 5 _ (flushed5_eq V c) fun i => by
    have hN : cfg0.N = 20 := N_0
    have hi0 : (i 0).val < 1 := (i 0).isLt
    have hi1 : (i 1).val < 128 := (i 1).isLt
    have ht : 19 < cfg0.N := by omega
    obtain ⟨-, -, -, -, -, -, -, -, -, -, e0, e1⟩ := idx_facts ⟨19, ht⟩
    refine ⟨⟨19, ht⟩, (flush0_5 _).mpr rfl, ?_⟩
    rw [mem_blk5]
    intro d
    match d with
    | ⟨0, _⟩ =>
      show win0_5.index ⟨19, ht⟩ 0 * 1 ≤ (i 0).val ∧ (i 0).val < win0_5.index ⟨19, ht⟩ 0 * 1 + 1
      rw [e0]; omega
    | ⟨1, _⟩ =>
      show win0_5.index ⟨19, ht⟩ 1 * 128 ≤ (i 1).val ∧ (i 1).val < win0_5.index ⟨19, ht⟩ 1 * 128 + 128
      rw [e1]; omega

end Cert.KernelIdeal.Reg0

end
-- ==== Proof.Reg1.lean ====
/-
  The second kernel region, read as values: each block of 5000 rows is normalized by the given mean and variance
  rows, scaled, shifted, clipped at zero and sent through the affine map; the result array is that map of the
  whole input, and the two one-row outputs end at the column sums and column sums of squares of the result.
-/
import proofs.«129943_j71416716197907_1_alg».proof.Proof.Gen.KernelIdeal.Frame
import proofs.«129943_j71416716197907_1_alg».proof.Proof.Pay
import proofs.«129943_j71416716197907_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat)

/-! ## What one run of the body leaves in each output's buffer -/

section Pieces
variable {F : FTy → Type} [FloatOps F]

theorem hz : (![0, 0] : Fin 2 → Nat) = fun _ => 0 := funext fun a => by
  match a with
  | ⟨0, _⟩ => rfl
  | ⟨1, _⟩ => rfl

/-- At the first block the big output's buffer holds the affine map of the normalized block. -/
theorem out_A_7 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (a6 : Memref sig .tc .vmem S128x128 .f32) (h6 : a6.IsWhole) (a7 : Memref sig .tc .vmem S1x128 .f32) (h7 : a7.IsWhole)
    (a8 : Memref sig .tc .vmem S5000x128 .f32) (h8 : a8.IsWhole) (a9 : Memref sig .tc .vmem S1x128 .f32) (h9 : a9.IsWhole)
    (a10 : Memref sig .tc .vmem S1x128 .f32) (h10 : a10.IsWhole) (hc : cond1_0 i)
    (x0 : Vec F S5000x128 .f32) (x1 x2 x3 x4 : Vec F S1x128 .f32) (x5 : Vec F S128x128 .f32) (x6 : Vec F S1x128 .f32) :
    out1_A_7 c i a1 h1 a2 h2 a3 h3 a4 h4 a5 h5 a6 h6 a7 h7 a8 h8 a9 h9 a10 h10 hc x0 x1 x2 x3 x4 x5 x6 = k1_pay5 x0 x1 x2 x3 x4 x5 x6 := by
  unfold out1_A_7
  rw [View.read_writes_eq_canon _ _ _ (cover1_A_7 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_unit_zero hz]
  simp only [View.readAt_eq_ld, h1.read_unread, h2.read_unread, h3.read_unread, h4.read_unread, h5.read_unread,
    h6.read_unread, h7.read_unread, View.ld_unit_zero (S := S5000x128) hz, View.ld_unit_zero (S := S128x128) hz,
    View.ld_unit_zero (S := S1x128) hz]

/-- At the first block the row of sums is the zero row plus the block's column sums. -/
theorem out_A_8 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (a6 : Memref sig .tc .vmem S128x128 .f32) (h6 : a6.IsWhole) (a7 : Memref sig .tc .vmem S1x128 .f32) (h7 : a7.IsWhole)
    (a8 : Memref sig .tc .vmem S5000x128 .f32) (h8 : a8.IsWhole) (a9 : Memref sig .tc .vmem S1x128 .f32) (h9 : a9.IsWhole)
    (a10 : Memref sig .tc .vmem S1x128 .f32) (h10 : a10.IsWhole) (hc : cond1_0 i)
    (x0 : Vec F S5000x128 .f32) (x1 x2 x3 x4 : Vec F S1x128 .f32) (x5 : Vec F S128x128 .f32) (x6 : Vec F S1x128 .f32) :
    out1_A_8 c i a1 h1 a2 h2 a3 h3 a4 h4 a5 h5 a6 h6 a7 h7 a8 h8 a9 h9 a10 h10 hc x0 x1 x2 x3 x4 x5 x6 = k1_pay1 (k1_pay5 x0 x1 x2 x3 x4 x5 x6) k1_pay3 := by
  unfold out1_A_8
  rw [View.read_writes_eq_canon _ _ _ (cover1_A_8 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    h6.read_unread, h7.read_unread, View.ld_unit_zero (S := S5000x128) hz, View.ld_unit_zero (S := S128x128) hz,
    View.ld_unit_zero (S := S1x128) hz]

/-- At the first block the row of sums of squares is the zero row plus the block's column sums of squares. -/
theorem out_A_9 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (a6 : Memref sig .tc .vmem S128x128 .f32) (h6 : a6.IsWhole) (a7 : Memref sig .tc .vmem S1x128 .f32) (h7 : a7.IsWhole)
    (a8 : Memref sig .tc .vmem S5000x128 .f32) (h8 : a8.IsWhole) (a9 : Memref sig .tc .vmem S1x128 .f32) (h9 : a9.IsWhole)
    (a10 : Memref sig .tc .vmem S1x128 .f32) (h10 : a10.IsWhole) (hc : cond1_0 i)
    (x0 : Vec F S5000x128 .f32) (x1 x2 x3 x4 : Vec F S1x128 .f32) (x5 : Vec F S128x128 .f32) (x6 : Vec F S1x128 .f32) :
    out1_A_9 c i a1 h1 a2 h2 a3 h3 a4 h4 a5 h5 a6 h6 a7 h7 a8 h8 a9 h9 a10 h10 hc x0 x1 x2 x3 x4 x5 x6 = k1_pay2 (k1_pay5 x0 x1 x2 x3 x4 x5 x6) k1_pay4 := by
  unfold out1_A_9
  rw [View.read_writes_eq_canon _ _ _ (cover1_A_9 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    h6.read_unread, h7.read_unread, View.ld_unit_zero (S := S5000x128) hz, View.ld_unit_zero (S := S128x128) hz,
    View.ld_unit_zero (S := S1x128) hz]

/-- At a later block the big output's buffer holds the affine map of the normalized block. -/
theorem out_B_7 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (a6 : Memref sig .tc .vmem S128x128 .f32) (h6 : a6.IsWhole) (a7 : Memref sig .tc .vmem S1x128 .f32) (h7 : a7.IsWhole)
    (a8 : Memref sig .tc .vmem S5000x128 .f32) (h8 : a8.IsWhole) (a9 : Memref sig .tc .vmem S1x128 .f32) (h9 : a9.IsWhole)
    (a10 : Memref sig .tc .vmem S1x128 .f32) (h10 : a10.IsWhole) (hc : ¬cond1_0 i)
    (x0 : Vec F S5000x128 .f32) (x1 x2 x3 x4 : Vec F S1x128 .f32) (x5 : Vec F S128x128 .f32) (x6 : Vec F S1x128 .f32) (xo8 xo9 : Vec F S1x128 .f32) :
    out1_B_7 c i a1 h1 a2 h2 a3 h3 a4 h4 a5 h5 a6 h6 a7 h7 a8 h8 a9 h9 a10 h10 hc x0 x1 x2 x3 x4 x5 x6 xo8 xo9 = k1_pay5 x0 x1 x2 x3 x4 x5 x6 := by
  unfold out1_B_7
  rw [View.read_writes_eq_canon _ _ _ (cover1_B_7 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero hz]
  simp only [View.readAt_eq_ld, h1.read_unread, h2.read_unread, h3.read_unread, h4.read_unread, h5.read_unread,
    h6.read_unread, h7.read_unread, h9.read_unread, h10.read_unread, View.ld_unit_zero (S := S5000x128) hz,
    View.ld_unit_zero (S := S128x128) hz, View.ld_unit_zero (S := S1x128) hz]

/-- At a later block the row of sums gains the block's column sums. -/
theorem out_B_8 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (a6 : Memref sig .tc .vmem S128x128 .f32) (h6 : a6.IsWhole) (a7 : Memref sig .tc .vmem S1x128 .f32) (h7 : a7.IsWhole)
    (a8 : Memref sig .tc .vmem S5000x128 .f32) (h8 : a8.IsWhole) (a9 : Memref sig .tc .vmem S1x128 .f32) (h9 : a9.IsWhole)
    (a10 : Memref sig .tc .vmem S1x128 .f32) (h10 : a10.IsWhole) (hc : ¬cond1_0 i)
    (x0 : Vec F S5000x128 .f32) (x1 x2 x3 x4 : Vec F S1x128 .f32) (x5 : Vec F S128x128 .f32) (x6 : Vec F S1x128 .f32) (xo8 xo9 : Vec F S1x128 .f32) :
    out1_B_8 c i a1 h1 a2 h2 a3 h3 a4 h4 a5 h5 a6 h6 a7 h7 a8 h8 a9 h9 a10 h10 hc x0 x1 x2 x3 x4 x5 x6 xo8 xo9 = k1_pay1 (k1_pay5 x0 x1 x2 x3 x4 x5 x6) xo8 := by
  unfold out1_B_8
  rw [View.read_writes_eq_canon _ _ _ (cover1_B_8 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero hz]
  simp only [View.readAt_eq_ld, h1.read_unread, h2.read_unread, h3.read_unread, h4.read_unread, h5.read_unread,
    h6.read_unread, h7.read_unread, h9.read_unread, h10.read_unread, View.ld_unit_zero (S := S5000x128) hz,
    View.ld_unit_zero (S := S128x128) hz, View.ld_unit_zero (S := S1x128) hz]

/-- At a later block the row of sums of squares gains the block's column sums of squares. -/
theorem out_B_9 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (a6 : Memref sig .tc .vmem S128x128 .f32) (h6 : a6.IsWhole) (a7 : Memref sig .tc .vmem S1x128 .f32) (h7 : a7.IsWhole)
    (a8 : Memref sig .tc .vmem S5000x128 .f32) (h8 : a8.IsWhole) (a9 : Memref sig .tc .vmem S1x128 .f32) (h9 : a9.IsWhole)
    (a10 : Memref sig .tc .vmem S1x128 .f32) (h10 : a10.IsWhole) (hc : ¬cond1_0 i)
    (x0 : Vec F S5000x128 .f32) (x1 x2 x3 x4 : Vec F S1x128 .f32) (x5 : Vec F S128x128 .f32) (x6 : Vec F S1x128 .f32) (xo8 xo9 : Vec F S1x128 .f32) :
    out1_B_9 c i a1 h1 a2 h2 a3 h3 a4 h4 a5 h5 a6 h6 a7 h7 a8 h8 a9 h9 a10 h10 hc x0 x1 x2 x3 x4 x5 x6 xo8 xo9 = k1_pay2 (k1_pay5 x0 x1 x2 x3 x4 x5 x6) xo9 := by
  unfold out1_B_9
  rw [View.read_writes_eq_canon _ _ _ (cover1_B_9 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero hz]
  simp only [View.readAt_eq_ld, h1.read_unread, h2.read_unread, h3.read_unread, h4.read_unread, h5.read_unread,
    h6.read_unread, h7.read_unread, h9.read_unread, h10.read_unread, View.ld_unit_zero (S := S5000x128) hz,
    View.ld_unit_zero (S := S128x128) hz, View.ld_unit_zero (S := S1x128) hz]

end Pieces

/-! ## The blocks the body loads, read off the arrays -/

-- the buffer contents when the region is entered
variable (V : (c : Dev nD) → (b : Ref sig .tc) → Buf (Elt Ideal) ((c : Thread nD τ).loc b))

/-- The matrix entering the region. -/
abbrev h (c : Dev nD) : Gin.Mat 100000 128 := fun p k => (V c main_v26_0 : Vec Ideal S100000x128 .f32) (ix2 p k)
/-- The mean row. -/
abbrev μ (c : Dev nD) : Gin.Row 128 := fun q => (V c main_v28 : Vec Ideal S1x128 .f32) (ix2 0 q)
/-- The variance row. -/
abbrev v (c : Dev nD) : Gin.Row 128 := fun q => (V c main_v32 : Vec Ideal S1x128 .f32) (ix2 0 q)
/-- The scale row. -/
abbrev g (c : Dev nD) : Gin.Row 128 := fun q => (V c main_v21 : Vec Ideal S1x128 .f32) (ix2 0 q)
/-- The shift row. -/
abbrev be (c : Dev nD) : Gin.Row 128 := fun q => (V c main_v22 : Vec Ideal S1x128 .f32) (ix2 0 q)
/-- The square matrix of the affine map. -/
abbrev w (c : Dev nD) : Gin.Mat 128 128 := fun k q => (V c main_v18 : Vec Ideal S128x128 .f32) (ix2 k q)
/-- The bias row. -/
abbrev b (c : Dev nD) : Gin.Row 128 := fun q => (V c main_v23 : Vec Ideal S1x128 .f32) (ix2 0 q)

/-- What the region computes of the whole input. -/
abbrev res (c : Dev nD) : Gin.Mat 100000 128 :=
  Gin.lin (Gin.bnrelu Pay.eps (h V c) (μ V c) (v V c) (g V c) (be V c)) (w V c) (b V c)

/-- The grid has twenty points. -/
theorem lt20 (t : Fin cfg1.N) : t.val < 20 := lt_of_lt_of_eq t.isLt (show cfg1.N = 20 from N_1)

/-- Row `r` of block `t` is row `5000 t + r` of the array. -/
abbrev row (t : Fin cfg1.N) (r : Fin 5000) : Fin 100000 := ⟨5000 * t.val + r.val, by have := lt20 t; omega⟩

/-- The index maps, decided over the grid: the two big windows move down the rows with the point, the small
    operands and the one-row outputs stay at the origin. -/
theorem idx_facts : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0) :=
  (by decide +kernel : ∀ t : Fin grid1.N, _)

/-- The input block at point `t`. -/
abbrev xblk (c : Dev nD) (t : Fin cfg1.N) : Vec Ideal S5000x128 .f32 := iblk1 V c 0 t
/-- The mean row as loaded at point `t`. -/
abbrev μblk (c : Dev nD) (t : Fin cfg1.N) : Vec Ideal S1x128 .f32 := iblk1 V c 1 t
/-- The variance row as loaded at point `t`. -/
abbrev vblk (c : Dev nD) (t : Fin cfg1.N) : Vec Ideal S1x128 .f32 := iblk1 V c 2 t
/-- The scale row as loaded at point `t`. -/
abbrev gblk (c : Dev nD) (t : Fin cfg1.N) : Vec Ideal S1x128 .f32 := iblk1 V c 3 t
/-- The shift row as loaded at point `t`. -/
abbrev beblk (c : Dev nD) (t : Fin cfg1.N) : Vec Ideal S1x128 .f32 := iblk1 V c 4 t
/-- The square matrix as loaded at point `t`. -/
abbrev wblk (c : Dev nD) (t : Fin cfg1.N) : Vec Ideal S128x128 .f32 := iblk1 V c 5 t
/-- The bias row as loaded at point `t`. -/
abbrev bblk (c : Dev nD) (t : Fin cfg1.N) : Vec Ideal S1x128 .f32 := iblk1 V c 6 t

/-- The input block's entries are the array's, 5000 t rows down. -/
theorem xblk_apply (c : Dev nD) (t : Fin cfg1.N) (r : Fin 5000) (k : Fin 128) :
    xblk V c t (ix2 r k) = h V c (row t r) k := by
  show V c main_v26_0 (((cfg1.win 0).blk t).view.emb (ix2 r k)) = V c main_v26_0 (ix2 (row t r) k)
  refine congrArg (V c main_v26_0) (funext fun a => Fin.ext ?_)
  match a with
  | ⟨0, _⟩ => show win1_0.index t (0 : Fin 2) * 5000 + 1 * r.val = 5000 * t.val + r.val; rw [(idx_facts t).1.1]; omega
  | ⟨1, _⟩ => show win1_0.index t (1 : Fin 2) * 128 + 1 * k.val = k.val; rw [(idx_facts t).1.2]; omega

/-- The mean row as loaded is the mean row of the array, at every point. -/
theorem μblk_apply (c : Dev nD) (t : Fin cfg1.N) (q : Fin 128) : μblk V c t (ix2 0 q) = μ V c q := by
  show V c main_v28 (((cfg1.win 1).blk t).view.emb (ix2 0 q)) = V c main_v28 (ix2 0 q)
  refine congrArg (V c main_v28) (funext fun a => Fin.ext ?_)
  match a with
  | ⟨0, _⟩ => show win1_1.index t (0 : Fin 2) * 1 + 1 * 0 = 0; rw [(idx_facts t).2.1.1]
  | ⟨1, _⟩ => show win1_1.index t (1 : Fin 2) * 128 + 1 * q.val = q.val; rw [(idx_facts t).2.1.2]; omega

/-- The variance row as loaded is the variance row of the array, at every point. -/
theorem vblk_apply (c : Dev nD) (t : Fin cfg1.N) (q : Fin 128) : vblk V c t (ix2 0 q) = v V c q := by
  show V c main_v32 (((cfg1.win 2).blk t).view.emb (ix2 0 q)) = V c main_v32 (ix2 0 q)
  refine congrArg (V c main_v32) (funext fun a => Fin.ext ?_)
  match a with
  | ⟨0, _⟩ => show win1_2.index t (0 : Fin 2) * 1 + 1 * 0 = 0; rw [(idx_facts t).2.2.1.1]
  | ⟨1, _⟩ => show win1_2.index t (1 : Fin 2) * 128 + 1 * q.val = q.val; rw [(idx_facts t).2.2.1.2]; omega

/-- The scale row as loaded is the scale row of the array, at every point. -/
theorem gblk_apply (c : Dev nD) (t : Fin cfg1.N) (q : Fin 128) : gblk V c t (ix2 0 q) = g V c q := by
  show V c main_v21 (((cfg1.win 3).blk t).view.emb (ix2 0 q)) = V c main_v21 (ix2 0 q)
  refine congrArg (V c main_v21) (funext fun a => Fin.ext ?_)
  match a with
  | ⟨0, _⟩ => show win1_3.index t (0 : Fin 2) * 1 + 1 * 0 = 0; rw [(idx_facts t).2.2.2.1.1]
  | ⟨1, _⟩ => show win1_3.index t (1 : Fin 2) * 128 + 1 * q.val = q.val; rw [(idx_facts t).2.2.2.1.2]; omega

/-- The shift row as loaded is the shift row of the array, at every point. -/
theorem beblk_apply (c : Dev nD) (t : Fin cfg1.N) (q : Fin 128) : beblk V c t (ix2 0 q) = be V c q := by
  show V c main_v22 (((cfg1.win 4).blk t).view.emb (ix2 0 q)) = V c main_v22 (ix2 0 q)
  refine congrArg (V c main_v22) (funext fun a => Fin.ext ?_)
  match a with
  | ⟨0, _⟩ => show win1_4.index t (0 : Fin 2) * 1 + 1 * 0 = 0; rw [(idx_facts t).2.2.2.2.1.1]
  | ⟨1, _⟩ => show win1_4.index t (1 : Fin 2) * 128 + 1 * q.val = q.val; rw [(idx_facts t).2.2.2.2.1.2]; omega

/-- The bias row as loaded is the bias row of the array, at every point. -/
theorem bblk_apply (c : Dev nD) (t : Fin cfg1.N) (q : Fin 128) : bblk V c t (ix2 0 q) = b V c q := by
  show V c main_v23 (((cfg1.win 6).blk t).view.emb (ix2 0 q)) = V c main_v23 (ix2 0 q)
  refine congrArg (V c main_v23) (funext fun a => Fin.ext ?_)
  match a with
  | ⟨0, _⟩ => show win1_6.index t (0 : Fin 2) * 1 + 1 * 0 = 0; rw [(idx_facts t).2.2.2.2.2.2.1.1]
  | ⟨1, _⟩ => show win1_6.index t (1 : Fin 2) * 128 + 1 * q.val = q.val; rw [(idx_facts t).2.2.2.2.2.2.1.2]; omega

/-- The square matrix as loaded is the array's, at every point. -/
theorem wblk_apply (c : Dev nD) (t : Fin cfg1.N) (k q : Fin 128) : wblk V c t (ix2 k q) = w V c k q := by
  show V c main_v18 (((cfg1.win 5).blk t).view.emb (ix2 k q)) = V c main_v18 (ix2 k q)
  refine congrArg (V c main_v18) (funext fun a => Fin.ext ?_)
  match a with
  | ⟨0, _⟩ => show win1_5.index t (0 : Fin 2) * 128 + 1 * k.val = k.val; rw [(idx_facts t).2.2.2.2.2.1.1]; omega
  | ⟨1, _⟩ => show win1_5.index t (1 : Fin 2) * 128 + 1 * q.val = q.val; rw [(idx_facts t).2.2.2.2.2.1.2]; omega

/-- What the body stores in the big output's buffer at point `t`. -/
abbrev yblk (c : Dev nD) (t : Fin cfg1.N) : FVec Ideal S5000x128 .f32 :=
  k1_pay5 (F := Ideal) (xblk V c t) (μblk V c t) (vblk V c t) (gblk V c t) (beblk V c t) (wblk V c t) (bblk V c t)

/-- It is rows `5000 t … 5000 t + 4999` of the region's result. -/
theorem yblk_apply (c : Dev nD) (t : Fin cfg1.N) (r : Fin 5000) (q : Fin 128) :
    yblk V c t (ix2 r q) = res V c (row t r) q := by
  show k1_pay5 (F := Ideal) (xblk V c t) (μblk V c t) (vblk V c t) (gblk V c t) (beblk V c t) (wblk V c t) (bblk V c t) (ix2 r q) = _
  rw [Pay.pay_bnlin]
  simp only [Pay.bn, xblk_apply, μblk_apply, vblk_apply, gblk_apply, beblk_apply, wblk_apply, bblk_apply,
    Gin.lin, Gin.mm, Gin.bnrelu]

/-! ## Sums over all rows, block by block -/

/-- Entry `(p, q)` of the result for any natural `p`, zero past the last row. -/
def resN (c : Dev nD) (p : ℕ) (q : Fin 128) : EReal := if hp : p < 100000 then res V c ⟨p, hp⟩ q else 0

theorem resN_row (c : Dev nD) (t : Fin cfg1.N) (r : Fin 5000) (q : Fin 128) :
    resN V c (5000 * t.val + r.val) q = res V c (row t r) q := dif_pos (row t r).isLt

theorem resN_val (c : Dev nD) (p : Fin 100000) (q : Fin 128) : resN V c p.val q = res V c p q := dif_pos p.isLt

/-- A sum over the 100000 rows is the sum over the 20 blocks of the sums over each block's 5000 rows. -/
theorem sum_rows (f : ℕ → EReal) :
    ∑ p : Fin 100000, f p.val = ∑ t ∈ Finset.range 20, ∑ r : Fin 5000, f (5000 * t + r.val) := by
  rw [← Fin.sum_univ_eq_sum_range (fun t => ∑ r : Fin 5000, f (5000 * t + r.val)) 20, ← Fintype.sum_prod_type']
  exact (Fintype.sum_equiv (finProdFinEquiv (m := 20) (n := 5000)) _ (fun p : Fin 100000 => f p.val)
    (fun x => congrArg f (Nat.add_comm _ _))).symm

/-! ## The outputs' buffers after each point -/

/-- The first point: the big output's buffer holds the block's result, the two rows the zero rows plus the block's sums. -/
theorem outs_A (c : Dev nD) (t : Fin cfg1.N) (h0 : t.val % 20 = 0) :
    (outsAt1 V c t.val t.isLt).1 = yblk V c t
    ∧ (outsAt1 V c t.val t.isLt).2.1 = k1_pay1 (F := Ideal) (yblk V c t) (k1_pay3 (F := Ideal))
    ∧ (outsAt1 V c t.val t.isLt).2.2 = k1_pay2 (F := Ideal) (yblk V c t) (k1_pay4 (F := Ideal)) := by
  rw [outsAt1_A V c t h0]
  dsimp only
  exact ⟨out_A_7 .., out_A_8 .., out_A_9 ..⟩

/-- A later point: the big output's buffer holds the block's result, the two rows gain the block's sums. -/
theorem outs_B (c : Dev nD) (t : Fin cfg1.N) (h0 : ¬t.val % 20 = 0) :
    (outsAt1 V c t.val t.isLt).1 = yblk V c t
    ∧ (outsAt1 V c t.val t.isLt).2.1
        = k1_pay1 (F := Ideal) (yblk V c t) (outsAt1 V c (t.val - 1) (Nat.lt_of_le_of_lt (Nat.sub_le _ _) t.isLt)).2.1
    ∧ (outsAt1 V c t.val t.isLt).2.2
        = k1_pay2 (F := Ideal) (yblk V c t) (outsAt1 V c (t.val - 1) (Nat.lt_of_le_of_lt (Nat.sub_le _ _) t.isLt)).2.2 := by
  rw [outsAt1_B V c t h0]
  dsimp only
  exact ⟨out_B_7 .., out_B_8 .., out_B_9 ..⟩

/-- After point `n` the big output's buffer holds block `n` of the result, and the two rows hold, column by column,
    the sums and the sums of squares of the result's rows below `5000 (n + 1)`. -/
theorem outs_inv (c : Dev nD) : ∀ (n : ℕ) (hn : n < cfg1.N),
    (outsAt1 V c n hn).1 = yblk V c ⟨n, hn⟩
    ∧ (∀ q : Fin 128, (outsAt1 V c n hn).2.1 (ix2 0 q)
        = ∑ t ∈ Finset.range (n + 1), ∑ r : Fin 5000, resN V c (5000 * t + r.val) q)
    ∧ (∀ q : Fin 128, (outsAt1 V c n hn).2.2 (ix2 0 q)
        = ∑ t ∈ Finset.range (n + 1), ∑ r : Fin 5000, resN V c (5000 * t + r.val) q * resN V c (5000 * t + r.val) q)
  | 0, hn => by
    obtain ⟨e7, e8, e9⟩ := outs_A V c ⟨0, hn⟩ rfl
    refine ⟨e7, fun q => ?_, fun q => ?_⟩
    · rw [show (outsAt1 V c 0 hn).2.1 = _ from e8, Pay.pay_sum1, Pay.pay_zero1_3, zero_add, Finset.sum_range_one]
      exact Finset.sum_congr rfl fun r _ => (yblk_apply V c ⟨0, hn⟩ r q).trans (resN_row V c ⟨0, hn⟩ r q).symm
    · rw [show (outsAt1 V c 0 hn).2.2 = _ from e9, Pay.pay_sq1, Pay.pay_zero1_4, zero_add, Finset.sum_range_one]
      exact Finset.sum_congr rfl fun r _ => by
        rw [yblk_apply V c ⟨0, hn⟩ r q]; exact (congrArg (fun z => z * z) (resN_row V c ⟨0, hn⟩ r q)).symm
  | n + 1, hn => by
    have hN : cfg1.N = 20 := N_1
    have hB : ¬(⟨n + 1, hn⟩ : Fin cfg1.N).val % 20 = 0 := by dsimp only; omega
    obtain ⟨e7, e8, e9⟩ := outs_B V c ⟨n + 1, hn⟩ hB
    obtain ⟨-, i8, i9⟩ := outs_inv c n (Nat.lt_of_succ_lt hn)
    refine ⟨e7, fun q => ?_, fun q => ?_⟩
    · rw [show (outsAt1 V c (n + 1) hn).2.1 = _ from e8, Pay.pay_sum1, Finset.sum_range_succ _ (n + 1)]
      refine congrArg₂ (· + ·) (i8 q) ?_
      exact Finset.sum_congr rfl fun r _ => (yblk_apply V c ⟨n + 1, hn⟩ r q).trans (resN_row V c ⟨n + 1, hn⟩ r q).symm
    · rw [show (outsAt1 V c (n + 1) hn).2.2 = _ from e9, Pay.pay_sq1, Finset.sum_range_succ _ (n + 1)]
      refine congrArg₂ (· + ·) (i9 q) ?_
      exact Finset.sum_congr rfl fun r _ => by
        rw [yblk_apply V c ⟨n + 1, hn⟩ r q]; exact (congrArg (fun z => z * z) (resN_row V c ⟨n + 1, hn⟩ r q)).symm

/-! ## The arrays after the region -/

/-- The column sums of the result, block by block. -/
theorem csum_blocks (c : Dev nD) (q : Fin 128) :
    ∑ t ∈ Finset.range (19 + 1), ∑ r : Fin 5000, resN V c (5000 * t + r.val) q = Gin.csum (res V c) q := by
  rw [← sum_rows (fun p => resN V c p q)]
  exact Finset.sum_congr rfl fun p _ => resN_val V c p q

/-- The column sums of squares of the result, block by block. -/
theorem csq_blocks (c : Dev nD) (q : Fin 128) :
    ∑ t ∈ Finset.range (19 + 1), ∑ r : Fin 5000, resN V c (5000 * t + r.val) q * resN V c (5000 * t + r.val) q
      = Gin.csq (res V c) q := by
  rw [← sum_rows (fun p => resN V c p q * resN V c p q)]
  exact Finset.sum_congr rfl fun p _ => by rw [resN_val V c p q]

/-- Every point writes its block of the big output back: block `t` of the result of the whole input. -/
theorem flushed7_eq (c : Dev nD) (t : Fin cfg1.N) :
    (dat1 V c).flushed 7 t
      = ((cfg1.win 7).blk t).view.read (Elt Ideal) (fun i : S100000x128.Idx => res V c (i 0) (i 1)) := by
  show (cfg1.win 7).cut (grid1.coords t) ((dat1 V c).after 7 t) = _
  rw [after1_7, (outs_inv V c t.val t.isLt).1]
  funext j
  obtain ⟨r, q, rfl⟩ : ∃ (r : Fin 5000) (q : Fin 128), j = ix2 r q := ⟨j 0, j 1, eq_ix2 j⟩
  have e0 : (((cfg1.win 7).blk t).view.emb (ix2 r q)) 0 = row t r :=
    Fin.ext (by show win1_7.index t (0 : Fin 2) * 5000 + 1 * r.val = 5000 * t.val + r.val; rw [(idx_facts t).2.2.2.2.2.2.2.1.1]; omega)
  have e1 : (((cfg1.win 7).blk t).view.emb (ix2 r q)) 1 = q :=
    Fin.ext (by show win1_7.index t (1 : Fin 2) * 128 + 1 * q.val = q.val; rw [(idx_facts t).2.2.2.2.2.2.2.1.2]; omega)
  show yblk V c t (ix2 r q) = res V c ((((cfg1.win 7).blk t).view.emb (ix2 r q)) 0) ((((cfg1.win 7).blk t).view.emb (ix2 r q)) 1)
  rw [e0, e1]
  exact yblk_apply V c t r q

/-- An index of the big output is in point `t`'s block iff each coordinate is in the block's range on its axis. -/
theorem mem_blk7 (t : Fin cfg1.N) (i : S100000x128.Idx) :
    i ∈ ((cfg1.win 7).blk t).view.set
      ↔ ∀ a : Fin 2, win1_7.index t a * S5000x128.size a ≤ (i a).val ∧ (i a).val < win1_7.index t a * S5000x128.size a + S5000x128.size a := by
  show i ∈ ((View.whole main_v33_0).slice (win1_7.rect t)).set ↔ _
  rw [View.set_slice_whole, Rect.mem_set_unit]
  exact Iff.rfl

/-- Row `p` lies in the block of point `p / 5000`. -/
theorem cover7 (i : S100000x128.Idx) : ∃ t : Fin cfg1.N, (cfg1.win 7).flush t = true ∧ i ∈ ((cfg1.win 7).blk t).view.set := by
  have h0 : (i 0).val < 100000 := (i 0).isLt
  have h1 : (i 1).val < 128 := (i 1).isLt
  refine ⟨⟨(i 0).val / 5000, by rw [show cfg1.N = 20 from N_1]; omega⟩, flush1_7 _, ?_⟩
  rw [mem_blk7]
  intro a
  match a with
  | ⟨0, _⟩ =>
    show win1_7.index _ (0 : Fin 2) * 5000 ≤ (i 0).val ∧ (i 0).val < win1_7.index _ (0 : Fin 2) * 5000 + 5000
    rw [(idx_facts _).2.2.2.2.2.2.2.1.1]; dsimp only; omega
  | ⟨1, _⟩ =>
    show win1_7.index _ (1 : Fin 2) * 128 ≤ (i 1).val ∧ (i 1).val < win1_7.index _ (1 : Fin 2) * 128 + 128
    rw [(idx_facts _).2.2.2.2.2.2.2.1.2]; omega

/-- The only write-back of this row, at the last point, writes the column sums of the whole result. -/
theorem flushed8_eq (c : Dev nD) (t : Fin cfg1.N) (hf : (cfg1.win 8).flush t = true) :
    (dat1 V c).flushed 8 t
      = ((cfg1.win 8).blk t).view.read (Elt Ideal) (fun i : S1x128.Idx => Gin.csum (res V c) (i 1)) := by
  have h19 : t.val = 19 := by have := (flush1_8 t).mp hf; have := lt20 t; omega
  have key : ∀ q : Fin 128, (outsAt1 V c t.val t.isLt).2.1 (ix2 0 q) = Gin.csum (res V c) q := fun q => by
    rw [(outs_inv V c t.val t.isLt).2.1 q, h19]; exact csum_blocks V c q
  generalize Gin.csum (res V c) = S at key ⊢
  show (cfg1.win 8).cut (grid1.coords t) ((dat1 V c).after 8 t) = _
  rw [after1_8]
  funext j
  obtain ⟨r, q, rfl⟩ : ∃ (r : Fin 1) (q : Fin 128), j = ix2 r q := ⟨j 0, j 1, eq_ix2 j⟩
  obtain rfl : r = 0 := Subsingleton.elim _ _
  have e : (((cfg1.win 8).blk t).view.emb (ix2 0 q)) 1 = q :=
    Fin.ext (by show win1_8.index t (1 : Fin 2) * 128 + 1 * q.val = q.val; rw [(idx_facts t).2.2.2.2.2.2.2.2.1.2]; omega)
  show (outsAt1 V c t.val t.isLt).2.1 (ix2 0 q) = S ((((cfg1.win 8).blk t).view.emb (ix2 0 q)) 1)
  rw [e]
  exact key q

/-- An index of the row's array is in point `t`'s block iff each coordinate is in the block's range on its axis. -/
theorem mem_blk8 (t : Fin cfg1.N) (i : S1x128.Idx) :
    i ∈ ((cfg1.win 8).blk t).view.set
      ↔ ∀ a : Fin 2, win1_8.index t a * S1x128.size a ≤ (i a).val ∧ (i a).val < win1_8.index t a * S1x128.size a + S1x128.size a := by
  show i ∈ ((View.whole main_v33_1).slice (win1_8.rect t)).set ↔ _
  rw [View.set_slice_whole, Rect.mem_set_unit]
  exact Iff.rfl

/-- The last point's block is the whole row. -/
theorem cover8 (i : S1x128.Idx) : ∃ t : Fin cfg1.N, (cfg1.win 8).flush t = true ∧ i ∈ ((cfg1.win 8).blk t).view.set := by
  refine ⟨⟨19, by rw [show cfg1.N = 20 from N_1]; omega⟩, (flush1_8 _).mpr rfl, ?_⟩
  rw [mem_blk8]
  intro a
  have h0 : (i 0).val < 1 := (i 0).isLt
  have h1 : (i 1).val < 128 := (i 1).isLt
  match a with
  | ⟨0, _⟩ =>
    show win1_8.index _ (0 : Fin 2) * 1 ≤ (i 0).val ∧ (i 0).val < win1_8.index _ (0 : Fin 2) * 1 + 1
    rw [(idx_facts _).2.2.2.2.2.2.2.2.1.1]; omega
  | ⟨1, _⟩ =>
    show win1_8.index _ (1 : Fin 2) * 128 ≤ (i 1).val ∧ (i 1).val < win1_8.index _ (1 : Fin 2) * 128 + 128
    rw [(idx_facts _).2.2.2.2.2.2.2.2.1.2]; omega

/-- The only write-back of this row, at the last point, writes the column sums of squares of the whole result. -/
theorem flushed9_eq (c : Dev nD) (t : Fin cfg1.N) (hf : (cfg1.win 9).flush t = true) :
    (dat1 V c).flushed 9 t
      = ((cfg1.win 9).blk t).view.read (Elt Ideal) (fun i : S1x128.Idx => Gin.csq (res V c) (i 1)) := by
  have h19 : t.val = 19 := by have := (flush1_9 t).mp hf; have := lt20 t; omega
  have key : ∀ q : Fin 128, (outsAt1 V c t.val t.isLt).2.2 (ix2 0 q) = Gin.csq (res V c) q := fun q => by
    rw [(outs_inv V c t.val t.isLt).2.2 q, h19]; exact csq_blocks V c q
  generalize Gin.csq (res V c) = S at key ⊢
  show (cfg1.win 9).cut (grid1.coords t) ((dat1 V c).after 9 t) = _
  rw [after1_9]
  funext j
  obtain ⟨r, q, rfl⟩ : ∃ (r : Fin 1) (q : Fin 128), j = ix2 r q := ⟨j 0, j 1, eq_ix2 j⟩
  obtain rfl : r = 0 := Subsingleton.elim _ _
  have e : (((cfg1.win 9).blk t).view.emb (ix2 0 q)) 1 = q :=
    Fin.ext (by show win1_9.index t (1 : Fin 2) * 128 + 1 * q.val = q.val; rw [(idx_facts t).2.2.2.2.2.2.2.2.2.2]; omega)
  show (outsAt1 V c t.val t.isLt).2.2 (ix2 0 q) = S ((((cfg1.win 9).blk t).view.emb (ix2 0 q)) 1)
  rw [e]
  exact key q

/-- An index of the row's array is in point `t`'s block iff each coordinate is in the block's range on its axis. -/
theorem mem_blk9 (t : Fin cfg1.N) (i : S1x128.Idx) :
    i ∈ ((cfg1.win 9).blk t).view.set
      ↔ ∀ a : Fin 2, win1_9.index t a * S1x128.size a ≤ (i a).val ∧ (i a).val < win1_9.index t a * S1x128.size a + S1x128.size a := by
  show i ∈ ((View.whole main_v33_2).slice (win1_9.rect t)).set ↔ _
  rw [View.set_slice_whole, Rect.mem_set_unit]
  exact Iff.rfl

/-- The last point's block is the whole row. -/
theorem cover9 (i : S1x128.Idx) : ∃ t : Fin cfg1.N, (cfg1.win 9).flush t = true ∧ i ∈ ((cfg1.win 9).blk t).view.set := by
  refine ⟨⟨19, by rw [show cfg1.N = 20 from N_1]; omega⟩, (flush1_9 _).mpr rfl, ?_⟩
  rw [mem_blk9]
  intro a
  have h0 : (i 0).val < 1 := (i 0).isLt
  have h1 : (i 1).val < 128 := (i 1).isLt
  match a with
  | ⟨0, _⟩ =>
    show win1_9.index _ (0 : Fin 2) * 1 ≤ (i 0).val ∧ (i 0).val < win1_9.index _ (0 : Fin 2) * 1 + 1
    rw [(idx_facts _).2.2.2.2.2.2.2.2.2.1]; omega
  | ⟨1, _⟩ =>
    show win1_9.index _ (1 : Fin 2) * 128 ≤ (i 1).val ∧ (i 1).val < win1_9.index _ (1 : Fin 2) * 128 + 128
    rw [(idx_facts _).2.2.2.2.2.2.2.2.2.2]; omega

/-- The result array after the region. -/
theorem final7 (c : Dev nD) :
    (dat1 V c).arrAt 7 cfg1.N = (fun i : S100000x128.Idx => res V c (i 0) (i 1)) :=
  (dat1 V c).arrAt_eq_of_cover 7 _ (fun t _ => flushed7_eq V c t) cover7

/-- The first one-row output after the region: the column sums of the result. -/
theorem final8 (c : Dev nD) :
    (dat1 V c).arrAt 8 cfg1.N = (fun i : S1x128.Idx => Gin.csum (res V c) (i 1)) :=
  (dat1 V c).arrAt_eq_of_cover 8 _ (flushed8_eq V c) cover8

/-- The second one-row output after the region: the column sums of squares of the result. -/
theorem final9 (c : Dev nD) :
    (dat1 V c).arrAt 9 cfg1.N = (fun i : S1x128.Idx => Gin.csq (res V c) (i 1)) :=
  (dat1 V c).arrAt_eq_of_cover 9 _ (flushed9_eq V c) cover9

end Cert.KernelIdeal.Reg1

end
-- ==== Proof.Reg2.lean ====
/-
  The third kernel region, read as values: each block of 5000 rows is normalized, scaled, shifted, clipped at
  zero, multiplied by the square matrix and clipped at zero; the result array is that function of the whole input.
-/
import proofs.«129943_j71416716197907_1_alg».proof.Proof.Gen.KernelIdeal.Frame
import proofs.«129943_j71416716197907_1_alg».proof.Proof.Pay
import proofs.«129943_j71416716197907_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Reg2

open Cert.KernelIdeal Cert.KernelIdeal.Gen Idealize.ShloMosaic Idealize.ShloMosaic.TcCoe Idealize.SL.Sem
open Idealize.ShloMosaic.ValueIdx
open Idealize.ShloMosaic.Pipeline (Dat)

-- the buffer contents when the region is entered
variable (V : (c : Dev nD) → (b : Ref sig .tc) → Buf (Elt Ideal) ((c : Thread nD τ).loc b))

/-- The matrix entering the region. -/
abbrev h (c : Dev nD) : Gin.Mat 100000 128 := fun p k => (V c main_v33_0 : Vec Ideal S100000x128 .f32) (ix2 p k)
/-- The mean row. -/
abbrev μ (c : Dev nD) : Gin.Row 128 := fun q => (V c main_v35 : Vec Ideal S1x128 .f32) (ix2 0 q)
/-- The variance row. -/
abbrev v (c : Dev nD) : Gin.Row 128 := fun q => (V c main_v39 : Vec Ideal S1x128 .f32) (ix2 0 q)
/-- The scale row. -/
abbrev g (c : Dev nD) : Gin.Row 128 := fun q => (V c main_v24 : Vec Ideal S1x128 .f32) (ix2 0 q)
/-- The shift row. -/
abbrev be (c : Dev nD) : Gin.Row 128 := fun q => (V c main_v25 : Vec Ideal S1x128 .f32) (ix2 0 q)
/-- The square matrix. -/
abbrev w (c : Dev nD) : Gin.Mat 128 128 := fun k q => (V c main_v19 : Vec Ideal S128x128 .f32) (ix2 k q)

/-- The zero offsets, as the constant function. -/
theorem hz : (![0, 0] : Fin 2 → Nat) = fun _ => 0 := funext fun a => by fin_cases a <;> rfl

/-- The whole result array: every row normalized, scaled, shifted, clipped, multiplied by the square matrix, clipped. -/
abbrev G (c : Dev nD) : S100000x128.Idx → Elt Ideal .f32 := fun i =>
  Gin.relu (Gin.mm (Gin.bnrelu Pay.eps (h V c) (μ V c) (v V c) (g V c) (be V c)) (w V c)) (i 0) (i 1)

/-- The index maps over the grid: the big operand and the result move one block of rows per point; the small
    operands stay at their only block. -/
theorem idx_facts : ∀ t : Fin cfg2.N,
    win2_0.index t (0 : Fin 2) = t.val ∧ win2_0.index t (1 : Fin 2) = 0
    ∧ win2_6.index t (0 : Fin 2) = t.val ∧ win2_6.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Row `r` of block `t` is a row of the array: `5000 t + r < 100000`. -/
theorem row_lt (t : Fin cfg2.N) (r : Fin 5000) : t.val * 5000 + r.val < 100000 := by
  have ht : t.val < 20 := t.isLt.trans_eq N_2
  have hr := r.isLt
  omega

/-- Entry `(r, q)` of the result's block `t` sits at row `5000 t + r`, column `q` of the array. -/
theorem emb_out (t : Fin cfg2.N) (r : Fin 5000) (q : Fin 128) :
    ((cfg2.win 6).blk t).view.emb (ix2 r q) = (ix2 ⟨t.val * 5000 + r.val, row_lt t r⟩ q : S100000x128.Idx) := by
  obtain ⟨-, -, e0, e1, -⟩ := idx_facts t
  funext a; apply Fin.ext
  match a with
  | ⟨0, _⟩ => show win2_6.index t (0 : Fin 2) * 5000 + 1 * r.val = t.val * 5000 + r.val; omega
  | ⟨1, _⟩ => show win2_6.index t (1 : Fin 2) * 128 + 1 * q.val = q.val; omega

/-- The big operand's block `t`, at `(r, k)`, is the matrix at row `5000 t + r`, column `k`. -/
theorem blk_h (c : Dev nD) (t : Fin cfg2.N) (r : Fin 5000) (k : Fin 128) :
    iblk2 V c 0 t (ix2 r k) = h V c ⟨t.val * 5000 + r.val, row_lt t r⟩ k := by
  obtain ⟨e0, e1, -⟩ := idx_facts t
  show V c main_v33_0 (((cfg2.win 0).blk t).view.emb (ix2 r k)) = V c main_v33_0 (ix2 ⟨t.val * 5000 + r.val, row_lt t r⟩ k)
  refine congrArg _ ?_
  funext a; apply Fin.ext
  match a with
  | ⟨0, _⟩ => show win2_0.index t (0 : Fin 2) * 5000 + 1 * r.val = t.val * 5000 + r.val; omega
  | ⟨1, _⟩ => show win2_0.index t (1 : Fin 2) * 128 + 1 * k.val = k.val; omega

/-- The mean row's only block is the row. -/
theorem blk_μ (c : Dev nD) (t : Fin cfg2.N) (k : Fin 128) : iblk2 V c 1 t (ix2 0 k) = μ V c k := by
  obtain ⟨-, -, -, -, e0, e1, -⟩ := idx_facts t
  show V c main_v35 (((cfg2.win 1).blk t).view.emb (ix2 0 k)) = V c main_v35 (ix2 0 k)
  refine congrArg _ ?_
  funext a; apply Fin.ext
  match a with
  | ⟨0, _⟩ => show win2_1.index t (0 : Fin 2) * 1 + 1 * 0 = 0; omega
  | ⟨1, _⟩ => show win2_1.index t (1 : Fin 2) * 128 + 1 * k.val = k.val; omega

/-- The variance row's only block is the row. -/
theorem blk_v (c : Dev nD) (t : Fin cfg2.N) (k : Fin 128) : iblk2 V c 2 t (ix2 0 k) = v V c k := by
  obtain ⟨-, -, -, -, -, -, e0, e1, -⟩ := idx_facts t
  show V c main_v39 (((cfg2.win 2).blk t).view.emb (ix2 0 k)) = V c main_v39 (ix2 0 k)
  refine congrArg _ ?_
  funext a; apply Fin.ext
  match a with
  | ⟨0, _⟩ => show win2_2.index t (0 : Fin 2) * 1 + 1 * 0 = 0; omega
  | ⟨1, _⟩ => show win2_2.index t (1 : Fin 2) * 128 + 1 * k.val = k.val; omega

/-- The scale row's only block is the row. -/
theorem blk_g (c : Dev nD) (t : Fin cfg2.N) (k : Fin 128) : iblk2 V c 3 t (ix2 0 k) = g V c k := by
  obtain ⟨-, -, -, -, -, -, -, -, e0, e1, -⟩ := idx_facts t
  show V c main_v24 (((cfg2.win 3).blk t).view.emb (ix2 0 k)) = V c main_v24 (ix2 0 k)
  refine congrArg _ ?_
  funext a; apply Fin.ext
  match a with
  | ⟨0, _⟩ => show win2_3.index t (0 : Fin 2) * 1 + 1 * 0 = 0; omega
  | ⟨1, _⟩ => show win2_3.index t (1 : Fin 2) * 128 + 1 * k.val = k.val; omega

/-- The shift row's only block is the row. -/
theorem blk_be (c : Dev nD) (t : Fin cfg2.N) (k : Fin 128) : iblk2 V c 4 t (ix2 0 k) = be V c k := by
  obtain ⟨-, -, -, -, -, -, -, -, -, -, e0, e1, -⟩ := idx_facts t
  show V c main_v25 (((cfg2.win 4).blk t).view.emb (ix2 0 k)) = V c main_v25 (ix2 0 k)
  refine congrArg _ ?_
  funext a; apply Fin.ext
  match a with
  | ⟨0, _⟩ => show win2_4.index t (0 : Fin 2) * 1 + 1 * 0 = 0; omega
  | ⟨1, _⟩ => show win2_4.index t (1 : Fin 2) * 128 + 1 * k.val = k.val; omega

/-- The square matrix's only block is the matrix. -/
theorem blk_w (c : Dev nD) (t : Fin cfg2.N) (k q : Fin 128) : iblk2 V c 5 t (ix2 k q) = w V c k q := by
  obtain ⟨-, -, -, -, -, -, -, -, -, -, -, -, e0, e1⟩ := idx_facts t
  show V c main_v19 (((cfg2.win 5).blk t).view.emb (ix2 k q)) = V c main_v19 (ix2 k q)
  refine congrArg _ ?_
  funext a; apply Fin.ext
  match a with
  | ⟨0, _⟩ => show win2_5.index t (0 : Fin 2) * 128 + 1 * k.val = k.val; omega
  | ⟨1, _⟩ => show win2_5.index t (1 : Fin 2) * 128 + 1 * q.val = q.val; omega

/-- What point `t` writes back is block `t` of the whole result array. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S5000x128) hz, View.ld_unit_zero (S := S1x128) hz, View.ld_unit_zero (S := S128x128) hz]
  funext j
  obtain ⟨r, q, rfl⟩ : ∃ (r : Fin 5000) (q : Fin 128), j = ix2 r q := ⟨j 0, j 1, eq_ix2 j⟩
  show k2_pay1 (F := Ideal) (iblk2 V c 0 t) (iblk2 V c 1 t) (iblk2 V c 2 t) (iblk2 V c 3 t) (iblk2 V c 4 t) (iblk2 V c 5 t) (ix2 r q)
      = G V c (((cfg2.win 6).blk t).view.emb (ix2 r q))
  refine (Pay.pay_out _ _ _ _ _ _ r q).trans ?_
  rw [emb_out]
  show max (∑ k : Fin 128, Pay.bn (iblk2 V c 0 t) (iblk2 V c 1 t) (iblk2 V c 2 t) (iblk2 V c 3 t) (iblk2 V c 4 t) r k * iblk2 V c 5 t (ix2 k q)) 0
      = max (∑ k : Fin 128, Gin.bnrelu Pay.eps (h V c) (μ V c) (v V c) (g V c) (be V c) ⟨t.val * 5000 + r.val, row_lt t r⟩ k * w V c k q) 0
  refine congrArg (fun s => max s 0) (Finset.sum_congr rfl fun k _ => ?_)
  unfold Pay.bn Gin.bnrelu
  rw [blk_h, blk_μ, blk_v, blk_g, blk_be, blk_w]

/-- An index of the array is in point `t`'s block iff each coordinate is in the block's range on its axis. -/
theorem mem_blk (t : Fin cfg2.N) (i : S100000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v40).slice (win2_6.rect t)).set ↔ _
  rw [View.set_slice_whole, Rect.mem_set_unit]
  exact Iff.rfl

/-- Every index of the array is in the block of the point its row falls in: row `p` is in block `p / 5000`. -/
theorem cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have ht : (i 0).val / 5000 < cfg2.N := by
    have : (i 0).val / 5000 < 20 := by omega
    exact this.trans_eq N_2.symm
  refine ⟨⟨(i 0).val / 5000, ht⟩, flush2_6 _, ?_⟩
  rw [mem_blk]
  obtain ⟨-, -, e0, e1, -⟩ := idx_facts ⟨(i 0).val / 5000, ht⟩
  have e0' : win2_6.index ⟨(i 0).val / 5000, ht⟩ (0 : Fin 2) = (i 0).val / 5000 := e0
  intro a
  match a with
  | ⟨0, _⟩ =>
    show win2_6.index ⟨(i 0).val / 5000, ht⟩ (0 : Fin 2) * 5000 ≤ (i 0).val
      ∧ (i 0).val < win2_6.index ⟨(i 0).val / 5000, ht⟩ (0 : Fin 2) * 5000 + 5000
    omega
  | ⟨1, _⟩ =>
    show win2_6.index ⟨(i 0).val / 5000, ht⟩ (1 : Fin 2) * 128 ≤ (i 1).val
      ∧ (i 1).val < win2_6.index ⟨(i 0).val / 5000, ht⟩ (1 : Fin 2) * 128 + 128
    omega

/-- The result array after the region. -/
theorem final6 (c : Dev nD) :
    (dat2 V c).arrAt 6 cfg2.N = (fun i : S100000x128.Idx =>
      Gin.relu (Gin.mm (Gin.bnrelu Pay.eps (h V c) (μ V c) (v V c) (g V c) (be V c)) (w V c)) (i 0) (i 1)) :=
  (dat2 V c).arrAt_eq_of_cover 6 (G V c) (fun t _ => flushed_eq V c t) cover

end Cert.KernelIdeal.Reg2

end
-- ==== Proof.RefStages.lean ====
/-
  The reference program read stage by stage: its result is the layer of the specification, the variance taken as
  the mean of squared deviations, applied to the matrices and rows of its arguments. The aggregated input
  features (the input plus, for every edge, the source node's row added into the destination node's row) are
  carried as one matrix, unopened: both programs compute them by the same host operations.
-/
import proofs.«129943_j71416716197907_1_alg».proof.Proof.Gen.ReferenceIdeal.Read
import proofs.«129943_j71416716197907_1_alg».proof.Proof.Spec
import proofs.«129943_j71416716197907_1_alg».proof.Proof.Consts
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Read Idealize.ShloMosaic Idealize.ShloMosaic.ValueIdx

/-- The number of rows, as the float literal both programs divide by. -/
abbrev n : EReal := Ideal.ofBits .f32 0x47C35000#32
/-- The small positive constant added to a variance before the inverse square root. -/
abbrev eps : EReal := Ideal.ofBits .f32 0x3727C5AC#32

/-- The aggregated input features, as a matrix. -/
abbrev h0 (x0 : (⟨S100000x128, .f32⟩ : BufTy).Contents (Elt Ideal)) (x1 : (⟨S2x1600000, .i32⟩ : BufTy).Contents (Elt Ideal)) :
    Gin.Mat 100000 128 := fun p k => val_main_v16 (F := Ideal) x0 x1 (ix2 p k)
/-- A weight matrix, transposed: entry (k, q) is the argument's entry (q, k). -/
abbrev wt (x : (⟨S128x128, .f32⟩ : BufTy).Contents (Elt Ideal)) : Gin.Mat 128 128 := fun k q => x (ix2 q k)
/-- A vector argument as a row. -/
abbrev row (x : (⟨S128, .f32⟩ : BufTy).Contents (Elt Ideal)) : Gin.Row 128 := fun q => x (ix1 q)

section Stages

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 x4 x5 : (⟨S128, .f32⟩ : BufTy).Contents (Elt Ideal))
  (x6 : (⟨S128x128, .f32⟩ : BufTy).Contents (Elt Ideal)) (x7 x8 x9 : (⟨S128, .f32⟩ : BufTy).Contents (Elt Ideal))
  (x10 : (⟨S128x128, .f32⟩ : BufTy).Contents (Elt Ideal))

/-! ### The index maps of the stages, at explicit coordinates -/

/-- A product's left operand is read at row `p`, column `k`. -/
theorem lidx18_at (p : Fin 100000) (q k : Fin 128) : lidx_main_v18 (ix2 p q) k = ix2 p k := by
  funext a; match a with | ⟨0, _⟩ => rfl | ⟨1, _⟩ => rfl
/-- A product's right operand, a transposed argument, is read at the argument's row `q`, column `k`. -/
theorem ridx18_at (p : Fin 100000) (q k : Fin 128) : idx_main_v17 (ridx_main_v18 (ix2 p q) k) = ix2 q k := by
  funext a; match a with | ⟨0, _⟩ => rfl | ⟨1, _⟩ => rfl
/-- A row spread over the matrix is read at the column. -/
theorem bidx20_at (p : Fin 100000) (q : Fin 128) : idx_main_v19 (idx_main_v20 (ix2 p q)) = ix1 q := by
  funext a; match a with | ⟨0, _⟩ => rfl
/-- A column sum's `k`-th term is the entry at row `k` of the column. -/
theorem sidx22_at (q : Fin 128) (k : Fin 100000) : idx_main_v22 (ix1 q) k = ix2 k q := by
  funext a; match a with | ⟨0, _⟩ => rfl | ⟨1, _⟩ => rfl

/-! ### The first layer -/

/-- The first affine map of the aggregated input. -/
def H1 : Gin.Mat 100000 128 := Gin.lin (h0 x0 x1) (wt x2) (row x3)

theorem v21_at (p : Fin 100000) (q : Fin 128) :
    val_main_v21 (F := Ideal) x0 x1 x2 x3 (ix2 p q) = H1 x0 x1 x2 x3 p q := by
  rw [val_main_v21_apply, val_main_v18_apply, val_main_v20_apply, val_main_v19_apply]
  simp only [val_main_v17_apply, lidx18_at, ridx18_at, bidx20_at, Ideal.addf_def]
  rfl

theorem v24_at (q : Fin 128) :
    val_main_v24 (F := Ideal) x0 x1 x2 x3 (ix1 q) = Gin.mean n (H1 x0 x1 x2 x3) q := by
  rw [val_main_v24_apply, val_main_v22_apply, val_main_v23_apply]
  simp only [val_main_cst_2_apply, val_main_cst_3_apply, sidx22_at, v21_at, Ideal.hostDivf_def, Ideal.ofBits_def,
    Gin.Consts.ofBits_zero, zero_add]
  rfl

/-- A row spread over the matrix is read at the column (the mean, for the deviations that are squared). -/
theorem bidx26_at (p : Fin 100000) (q : Fin 128) : idx_main_v25 (idx_main_v26 (ix2 p q)) = ix1 q := by
  funext a; match a with | ⟨0, _⟩ => rfl
/-- The same (the mean, for the deviations that are normalized). -/
theorem bidx33_at (p : Fin 100000) (q : Fin 128) : idx_main_v32 (idx_main_v33 (ix2 p q)) = ix1 q := by
  funext a; match a with | ⟨0, _⟩ => rfl
/-- The same (the inverse square root). -/
theorem bidx39_at (p : Fin 100000) (q : Fin 128) : idx_main_v38 (idx_main_v39 (ix2 p q)) = ix1 q := by
  funext a; match a with | ⟨0, _⟩ => rfl
/-- The same (the scale). -/
theorem bidx42_at (p : Fin 100000) (q : Fin 128) : idx_main_v41 (idx_main_v42 (ix2 p q)) = ix1 q := by
  funext a; match a with | ⟨0, _⟩ => rfl
/-- The same (the shift). -/
theorem bidx45_at (p : Fin 100000) (q : Fin 128) : idx_main_v44 (idx_main_v45 (ix2 p q)) = ix1 q := by
  funext a; match a with | ⟨0, _⟩ => rfl
/-- The sum of squared deviations' `k`-th term is the entry at row `k` of the column. -/
theorem sidx29_at (q : Fin 128) (k : Fin 100000) : idx_main_v29 (ix1 q) k = ix2 k q := by
  funext a; match a with | ⟨0, _⟩ => rfl | ⟨1, _⟩ => rfl

/-- The deviation from the column's mean (as squared for the variance). -/
theorem v27_at (p : Fin 100000) (q : Fin 128) :
    val_main_v27 (F := Ideal) x0 x1 x2 x3 (ix2 p q) = H1 x0 x1 x2 x3 p q - Gin.mean n (H1 x0 x1 x2 x3) q := by
  rw [val_main_v27_apply, val_main_v26_apply, val_main_v25_apply]
  simp only [bidx26_at, v21_at, v24_at, Ideal.subf_def]

/-- The deviation from the column's mean (as normalized). -/
theorem v34_at (p : Fin 100000) (q : Fin 128) :
    val_main_v34 (F := Ideal) x0 x1 x2 x3 (ix2 p q) = H1 x0 x1 x2 x3 p q - Gin.mean n (H1 x0 x1 x2 x3) q := by
  rw [val_main_v34_apply, val_main_v33_apply, val_main_v32_apply]
  simp only [bidx33_at, v21_at, v24_at, Ideal.subf_def]

/-- The variance: the mean of the squared deviations. -/
theorem v31_at (q : Fin 128) :
    val_main_v31 (F := Ideal) x0 x1 x2 x3 (ix1 q) = Gin.varR n (H1 x0 x1 x2 x3) q := by
  rw [val_main_v31_apply, val_main_v29_apply, val_main_v30_apply]
  simp only [val_main_cst_4_apply, val_main_cst_5_apply, sidx29_at, val_main_v28_apply, v27_at, Ideal.hostDivf_def,
    Ideal.mulf_def, Ideal.ofBits_def, Gin.Consts.ofBits_zero, zero_add]
  rfl

/-- The first layer's activations: normalized, scaled, shifted, clipped at zero. -/
def A1 : Gin.Mat 100000 128 :=
  Gin.bnrelu eps (H1 x0 x1 x2 x3) (Gin.mean n (H1 x0 x1 x2 x3)) (Gin.varR n (H1 x0 x1 x2 x3)) (row x4) (row x5)

theorem v47_at (p : Fin 100000) (q : Fin 128) :
    val_main_v47 (F := Ideal) x0 x1 x2 x3 x4 x5 (ix2 p q) = A1 x0 x1 x2 x3 x4 x5 p q := by
  rw [val_main_v47_apply, val_main_v46_apply, val_main_v43_apply, val_main_v40_apply, val_main_v39_apply,
    val_main_v38_apply, val_main_v42_apply, val_main_v41_apply, val_main_v45_apply, val_main_v44_apply,
    val_main_call0_v0_apply]
  simp only [bidx39_at, bidx42_at, bidx45_at, val_main_v37_apply, val_main_v36_apply, val_main_v35_apply,
    val_main_cst_6_apply, val_main_call0_cst_apply, v34_at, v31_at, Ideal.addf_def, Ideal.mulf_def,
    Ideal.maximumf_def, Ideal.hostUnary_rsqrt_def, Ideal.ofBits_def, Gin.Consts.ofBits_zero]
  rfl

/-! ### The second layer -/

/-- A product's left operand is read at row `p`, column `k`. -/
theorem lidx49_at (p : Fin 100000) (q k : Fin 128) : lidx_main_v49 (ix2 p q) k = ix2 p k := by
  funext a; match a with | ⟨0, _⟩ => rfl | ⟨1, _⟩ => rfl
/-- A product's right operand, a transposed argument, is read at the argument's row `q`, column `k`. -/
theorem ridx49_at (p : Fin 100000) (q k : Fin 128) : idx_main_v48 (ridx_main_v49 (ix2 p q) k) = ix2 q k := by
  funext a; match a with | ⟨0, _⟩ => rfl | ⟨1, _⟩ => rfl
/-- A row spread over the matrix is read at the column. -/
theorem bidx51_at (p : Fin 100000) (q : Fin 128) : idx_main_v50 (idx_main_v51 (ix2 p q)) = ix1 q := by
  funext a; match a with | ⟨0, _⟩ => rfl
/-- A column sum's `k`-th term is the entry at row `k` of the column. -/
theorem sidx53_at (q : Fin 128) (k : Fin 100000) : idx_main_v53 (ix1 q) k = ix2 k q := by
  funext a; match a with | ⟨0, _⟩ => rfl | ⟨1, _⟩ => rfl

/-- The second affine map, of the first layer's activations. -/
def H2 : Gin.Mat 100000 128 := Gin.lin (A1 x0 x1 x2 x3 x4 x5) (wt x6) (row x7)

theorem v52_at (p : Fin 100000) (q : Fin 128) :
    val_main_v52 (F := Ideal) x0 x1 x2 x3 x4 x5 x6 x7 (ix2 p q) = H2 x0 x1 x2 x3 x4 x5 x6 x7 p q := by
  rw [val_main_v52_apply, val_main_v49_apply, val_main_v51_apply, val_main_v50_apply]
  simp only [val_main_v48_apply, lidx49_at, ridx49_at, bidx51_at, v47_at, Ideal.addf_def]
  rfl

theorem v55_at (q : Fin 128) :
    val_main_v55 (F := Ideal) x0 x1 x2 x3 x4 x5 x6 x7 (ix1 q) = Gin.mean n (H2 x0 x1 x2 x3 x4 x5 x6 x7) q := by
  rw [val_main_v55_apply, val_main_v53_apply, val_main_v54_apply]
  simp only [val_main_cst_7_apply, val_main_cst_8_apply, sidx53_at, v52_at, Ideal.hostDivf_def, Ideal.ofBits_def,
    Gin.Consts.ofBits_zero, zero_add]
  rfl

/-- A row spread over the matrix is read at the column (the mean, for the deviations that are squared). -/
theorem bidx57_at (p : Fin 100000) (q : Fin 128) : idx_main_v56 (idx_main_v57 (ix2 p q)) = ix1 q := by
  funext a; match a with | ⟨0, _⟩ => rfl
/-- The same (the mean, for the deviations that are normalized). -/
theorem bidx64_at (p : Fin 100000) (q : Fin 128) : idx_main_v63 (idx_main_v64 (ix2 p q)) = ix1 q := by
  funext a; match a with | ⟨0, _⟩ => rfl
/-- The same (the inverse square root). -/
theorem bidx70_at (p : Fin 100000) (q : Fin 128) : idx_main_v69 (idx_main_v70 (ix2 p q)) = ix1 q := by
  funext a; match a with | ⟨0, _⟩ => rfl
/-- The same (the scale). -/
theorem bidx73_at (p : Fin 100000) (q : Fin 128) : idx_main_v72 (idx_main_v73 (ix2 p q)) = ix1 q := by
  funext a; match a with | ⟨0, _⟩ => rfl
/-- The same (the shift). -/
theorem bidx76_at (p : Fin 100000) (q : Fin 128) : idx_main_v75 (idx_main_v76 (ix2 p q)) = ix1 q := by
  funext a; match a with | ⟨0, _⟩ => rfl
/-- The sum of squared deviations' `k`-th term is the entry at row `k` of the column. -/
theorem sidx60_at (q : Fin 128) (k : Fin 100000) : idx_main_v60 (ix1 q) k = ix2 k q := by
  funext a; match a with | ⟨0, _⟩ => rfl | ⟨1, _⟩ => rfl

/-- The deviation from the column's mean (as squared for the variance). -/
theorem v58_at (p : Fin 100000) (q : Fin 128) :
    val_main_v58 (F := Ideal) x0 x1 x2 x3 x4 x5 x6 x7 (ix2 p q) = H2 x0 x1 x2 x3 x4 x5 x6 x7 p q - Gin.mean n (H2 x0 x1 x2 x3 x4 x5 x6 x7) q := by
  rw [val_main_v58_apply, val_main_v57_apply, val_main_v56_apply]
  simp only [bidx57_at, v52_at, v55_at, Ideal.subf_def]

/-- The deviation from the column's mean (as normalized). -/
theorem v65_at (p : Fin 100000) (q : Fin 128) :
    val_main_v65 (F := Ideal) x0 x1 x2 x3 x4 x5 x6 x7 (ix2 p q) = H2 x0 x1 x2 x3 x4 x5 x6 x7 p q - Gin.mean n (H2 x0 x1 x2 x3 x4 x5 x6 x7) q := by
  rw [val_main_v65_apply, val_main_v64_apply, val_main_v63_apply]
  simp only [bidx64_at, v52_at, v55_at, Ideal.subf_def]

/-- The variance: the mean of the squared deviations. -/
theorem v62_at (q : Fin 128) :
    val_main_v62 (F := Ideal) x0 x1 x2 x3 x4 x5 x6 x7 (ix1 q) = Gin.varR n (H2 x0 x1 x2 x3 x4 x5 x6 x7) q := by
  rw [val_main_v62_apply, val_main_v60_apply, val_main_v61_apply]
  simp only [val_main_cst_9_apply, val_main_cst_10_apply, sidx60_at, val_main_v59_apply, v58_at, Ideal.hostDivf_def,
    Ideal.mulf_def, Ideal.ofBits_def, Gin.Consts.ofBits_zero, zero_add]
  rfl

/-- The second layer's activations: normalized, scaled, shifted, clipped at zero. -/
def A2 : Gin.Mat 100000 128 :=
  Gin.bnrelu eps (H2 x0 x1 x2 x3 x4 x5 x6 x7) (Gin.mean n (H2 x0 x1 x2 x3 x4 x5 x6 x7)) (Gin.varR n (H2 x0 x1 x2 x3 x4 x5 x6 x7)) (row x8) (row x9)

theorem v78_at (p : Fin 100000) (q : Fin 128) :
    val_main_v78 (F := Ideal) x0 x1 x2 x3 x4 x5 x6 x7 x8 x9 (ix2 p q) = A2 x0 x1 x2 x3 x4 x5 x6 x7 x8 x9 p q := by
  rw [val_main_v78_apply, val_main_v77_apply, val_main_v74_apply, val_main_v71_apply, val_main_v70_apply,
    val_main_v69_apply, val_main_v73_apply, val_main_v72_apply, val_main_v76_apply, val_main_v75_apply,
    val_main_call1_v0_apply]
  simp only [bidx70_at, bidx73_at, bidx76_at, val_main_v68_apply, val_main_v67_apply, val_main_v66_apply,
    val_main_cst_11_apply, val_main_call1_cst_apply, v65_at, v62_at, Ideal.addf_def, Ideal.mulf_def,
    Ideal.maximumf_def, Ideal.hostUnary_rsqrt_def, Ideal.ofBits_def, Gin.Consts.ofBits_zero]
  rfl

/-! ### The last product -/

/-- The last product's left operand is read at row `p`, column `k`. -/
theorem lidx80_at (p : Fin 100000) (q k : Fin 128) : lidx_main_v80 (ix2 p q) k = ix2 p k := by
  funext a; match a with | ⟨0, _⟩ => rfl | ⟨1, _⟩ => rfl
/-- The last product's right operand, a transposed argument, is read at the argument's row `q`, column `k`. -/
theorem ridx80_at (p : Fin 100000) (q k : Fin 128) : idx_main_v79 (ridx_main_v80 (ix2 p q) k) = ix2 q k := by
  funext a; match a with | ⟨0, _⟩ => rfl | ⟨1, _⟩ => rfl

/-- The result: the second layer's activations times the last weights, clipped at zero. -/
theorem v81_at (p : Fin 100000) (q : Fin 128) :
    val_main_v81 (F := Ideal) x0 x1 x2 x3 x4 x5 x6 x7 x8 x9 x10 (ix2 p q)
      = Gin.relu (Gin.mm (A2 x0 x1 x2 x3 x4 x5 x6 x7 x8 x9) (wt x10)) p q := by
  rw [val_main_v81_apply, val_main_v80_apply, val_main_call2_v0_apply]
  simp only [val_main_v79_apply, lidx80_at, ridx80_at, v78_at, val_main_call2_cst_apply, Ideal.maximumf_def,
    Ideal.ofBits_def, Gin.Consts.ofBits_zero]
  rfl

end Stages

/-- The reference's result, entry by entry, is the layer with the variance as mean of squared deviations. -/
theorem ref_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 x4 x5 : (⟨S128, .f32⟩ : BufTy).Contents (Elt Ideal))
    (x6 : (⟨S128x128, .f32⟩ : BufTy).Contents (Elt Ideal)) (x7 x8 x9 : (⟨S128, .f32⟩ : BufTy).Contents (Elt Ideal))
    (x10 : (⟨S128x128, .f32⟩ : BufTy).Contents (Elt Ideal)) :
    val_main_v81 (F := Ideal) x0 x1 x2 x3 x4 x5 x6 x7 x8 x9 x10
      = (fun i : S100000x128.Idx => Gin.layer Gin.varR n eps (h0 x0 x1) (wt x2) (wt x6) (wt x10)
          (row x3) (row x4) (row x5) (row x7) (row x8) (row x9) (i 0) (i 1)) := by
  funext i
  obtain ⟨p, q, rfl⟩ : ∃ (p : Fin 100000) (q : Fin 128), i = ix2 p q := ⟨i 0, i 1, eq_ix2 i⟩
  rw [v81_at]
  rfl

end Cert.ReferenceIdeal.RefValue

end
-- ==== Proof.Chain.lean ====
/-
  The kernel program's result as one function of its arguments: chaining what each region leaves with what
  the host computes in between, the result array is the specification's layer applied to the aggregated input
  features, the transposed weight matrices and the bias, scale and shift rows, the variance taken as the mean of
  squares minus the squared mean.
-/
import proofs.«129943_j71416716197907_1_alg».proof.Proof.Glue2
import proofs.«129943_j71416716197907_1_alg».proof.Proof.Reg0
import proofs.«129943_j71416716197907_1_alg».proof.Proof.Reg1
import proofs.«129943_j71416716197907_1_alg».proof.Proof.Reg2
import proofs.«129943_j71416716197907_1_alg».proof.Proof.RefStages

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx
open Cert.ReferenceIdeal.RefValue (h0 wt row n eps)

variable (m : (ℓ : Loc nD τ sig) → Buf (Elt Ideal) ℓ) (ρ : Dev nD → PrngReg)

/-- The first affine map's result, of the arguments. -/
abbrev H1 (c : Dev nD) : Gin.Mat 100000 128 :=
  Gin.lin (h0 (m ((c : Thread nD τ).loc main_arg0)) (m ((c : Thread nD τ).loc main_arg1))) (wt (m ((c : Thread nD τ).loc main_arg2))) (row (m ((c : Thread nD τ).loc main_arg3)))
/-- The first normalization's result, of the arguments. -/
abbrev A1 (c : Dev nD) : Gin.Mat 100000 128 :=
  Gin.bnrelu eps (H1 m c) (Gin.mean n (H1 m c)) (Gin.varK n (H1 m c)) (row (m ((c : Thread nD τ).loc main_arg4))) (row (m ((c : Thread nD τ).loc main_arg5)))
/-- The second affine map's result, of the arguments. -/
abbrev H2 (c : Dev nD) : Gin.Mat 100000 128 := Gin.lin (A1 m c) (wt (m ((c : Thread nD τ).loc main_arg6))) (row (m ((c : Thread nD τ).loc main_arg7)))

/-! ## The first region's operands -/

theorem a0 (c : Dev nD) : Reg0.a (V1 m ρ) c = h0 (m ((c : Thread nD τ).loc main_arg0)) (m ((c : Thread nD τ).loc main_arg1)) := by
  funext p k
  show (V1 m ρ c main_v16 : Vec Ideal S100000x128 .f32) (ix2 p k) = _
  rw [Glue.v16]
theorem w0 (c : Dev nD) : Reg0.w (V1 m ρ) c = wt (m ((c : Thread nD τ).loc main_arg2)) := by
  funext k q; exact Glue.v17 m ρ c k q
theorem b0 (c : Dev nD) : Reg0.b (V1 m ρ) c = row (m ((c : Thread nD τ).loc main_arg3)) := by
  funext q; exact Glue.v20 m ρ c q

/-! ## The second region's operands -/

theorem h1 (c : Dev nD) : Reg1.h (V3 m ρ) c = H1 m c := by
  funext p k
  show (V3 m ρ c main_v26_0 : Vec Ideal S100000x128 .f32) (ix2 p k) = _
  rw [Glue.v26_0, Reg0.final3]
  show Gin.lin (Reg0.a (V1 m ρ) c) (Reg0.w (V1 m ρ) c) (Reg0.b (V1 m ρ) c) p k = _
  rw [a0, w0, b0]
theorem μ1 (c : Dev nD) : Reg1.μ (V3 m ρ) c = Gin.mean n (H1 m c) := by
  funext q
  show (V3 m ρ c main_v28 : Vec Ideal S1x128 .f32) (ix2 0 q) = _
  rw [Glue.v28, Reg0.final4]
  show Ideal.div (Gin.csum (Gin.lin (Reg0.a (V1 m ρ) c) (Reg0.w (V1 m ρ) c) (Reg0.b (V1 m ρ) c)) q) n = _
  rw [a0, w0, b0]
  rfl
theorem v1 (c : Dev nD) : Reg1.v (V3 m ρ) c = Gin.varK n (H1 m c) := by
  funext q
  show (V3 m ρ c main_v32 : Vec Ideal S1x128 .f32) (ix2 0 q) = _
  rw [Glue.v32, Reg0.final5]
  show Ideal.div (Gin.csq (Gin.lin (Reg0.a (V1 m ρ) c) (Reg0.w (V1 m ρ) c) (Reg0.b (V1 m ρ) c)) q) n
      - Reg1.μ (V3 m ρ) c q * Reg1.μ (V3 m ρ) c q = _
  rw [a0, w0, b0, μ1]
  rfl
theorem g1 (c : Dev nD) : Reg1.g (V3 m ρ) c = row (m ((c : Thread nD τ).loc main_arg4)) := by
  funext q; exact Glue.v21 m ρ c q
theorem be1 (c : Dev nD) : Reg1.be (V3 m ρ) c = row (m ((c : Thread nD τ).loc main_arg5)) := by
  funext q; exact Glue.v22 m ρ c q
theorem w1 (c : Dev nD) : Reg1.w (V3 m ρ) c = wt (m ((c : Thread nD τ).loc main_arg6)) := by
  funext k q; exact Glue.v18 m ρ c k q
theorem b1 (c : Dev nD) : Reg1.b (V3 m ρ) c = row (m ((c : Thread nD τ).loc main_arg7)) := by
  funext q; exact Glue.v23 m ρ c q
theorem res1 (c : Dev nD) : Reg1.res (V3 m ρ) c = H2 m c := by
  show Gin.lin (Gin.bnrelu Pay.eps (Reg1.h (V3 m ρ) c) (Reg1.μ (V3 m ρ) c) (Reg1.v (V3 m ρ) c) (Reg1.g (V3 m ρ) c)
      (Reg1.be (V3 m ρ) c)) (Reg1.w (V3 m ρ) c) (Reg1.b (V3 m ρ) c) = _
  rw [h1, μ1, v1, g1, be1, w1, b1]

/-! ## The third region's operands -/

theorem h2 (c : Dev nD) : Reg2.h (V5 m ρ) c = H2 m c := by
  funext p k
  show (V5 m ρ c main_v33_0 : Vec Ideal S100000x128 .f32) (ix2 p k) = _
  rw [Glue.v33_0, Reg1.final7]
  show Reg1.res (V3 m ρ) c p k = _
  rw [res1]
theorem μ2 (c : Dev nD) : Reg2.μ (V5 m ρ) c = Gin.mean n (H2 m c) := by
  funext q
  show (V5 m ρ c main_v35 : Vec Ideal S1x128 .f32) (ix2 0 q) = _
  rw [Glue.v35, Reg1.final8]
  show Ideal.div (Gin.csum (Reg1.res (V3 m ρ) c) q) n = _
  rw [res1]
  rfl
theorem v2 (c : Dev nD) : Reg2.v (V5 m ρ) c = Gin.varK n (H2 m c) := by
  funext q
  show (V5 m ρ c main_v39 : Vec Ideal S1x128 .f32) (ix2 0 q) = _
  rw [Glue.v39, Reg1.final9]
  show Ideal.div (Gin.csq (Reg1.res (V3 m ρ) c) q) n - Reg2.μ (V5 m ρ) c q * Reg2.μ (V5 m ρ) c q = _
  rw [res1, μ2]
  rfl
theorem g2 (c : Dev nD) : Reg2.g (V5 m ρ) c = row (m ((c : Thread nD τ).loc main_arg8)) := by
  funext q; exact Glue.v24 m ρ c q
theorem be2 (c : Dev nD) : Reg2.be (V5 m ρ) c = row (m ((c : Thread nD τ).loc main_arg9)) := by
  funext q; exact Glue.v25 m ρ c q
theorem w2 (c : Dev nD) : Reg2.w (V5 m ρ) c = wt (m ((c : Thread nD τ).loc main_arg10)) := by
  funext k q; exact Glue.v19 m ρ c k q

/-! ## The result -/

/-- The result array at the last boundary is the layer of the arguments, entry by entry. -/
theorem result (c : Dev nD) :
    W6 m ρ c (Proc.devRef .tc main_v40) = (fun i : S100000x128.Idx =>
      Gin.layer Gin.varK n eps (h0 (m ((c : Thread nD τ).loc main_arg0)) (m ((c : Thread nD τ).loc main_arg1)))
        (wt (m ((c : Thread nD τ).loc main_arg2))) (wt (m ((c : Thread nD τ).loc main_arg6))) (wt (m ((c : Thread nD τ).loc main_arg10)))
        (row (m ((c : Thread nD τ).loc main_arg3))) (row (m ((c : Thread nD τ).loc main_arg4))) (row (m ((c : Thread nD τ).loc main_arg5)))
        (row (m ((c : Thread nD τ).loc main_arg7))) (row (m ((c : Thread nD τ).loc main_arg8))) (row (m ((c : Thread nD τ).loc main_arg9))) (i 0) (i 1)) := by
  rw [Glue.v40, Reg2.final6, h2, μ2, v2, g2, be2, w2]
  rfl

end Cert.KernelIdeal.Chain

end
-- ==== Proof.Finite.lean ====
/-
  Finiteness. The precondition says that the absolute value of every entry of every float argument is below
  plus infinity; over the extended reals that makes every entry a real number. The aggregated input features are
  then real as well: a gathered entry is an entry of the input, and the scatter-add adds finitely many of them
  to zero; one times a real plus a real is a real.
-/
import proofs.«129943_j71416716197907_1_alg».proof.Pre_finite_inputs
import proofs.«129943_j71416716197907_1_alg».proof.Proof.Gen.ReferenceIdeal.Read
import proofs.«129943_j71416716197907_1_alg».proof.Proof.Spec
import proofs.«129943_j71416716197907_1_alg».proof.Proof.Consts
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx

/-- The pattern of plus infinity denotes the top element. -/
theorem ofBits_inf : Ideal.ofBits .f32 0x7F800000#32 = ⊤ := by
  simp [Ideal.ofBits, Ideal.ieee]

/-- An extended real whose absolute value is below the top element is a real number. -/
theorem real_of_abs_lt_top (x : EReal) (h : max x (-x) < ⊤) : ∃ r : ℝ, x = (r : EReal) := by
  induction x using EReal.rec with
  | bot => simp at h
  | coe r => exact ⟨r, rfl⟩
  | top => simp at h

/-- All entries below plus infinity in absolute value: every entry is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi (cmpf .olt (Host.absf x)
        (broadcastInDim s ![] hb (constant (F := Ideal) Cert.Pre_finite_inputs.S_ .f32 0x7F800000#32)))
        (constantI Cert.Pre_finite_inputs.S_ 1 1#1) hr hu ix0 = 1#1) :
    ∀ i, ∃ r : ℝ, x i = (r : EReal) := by
  intro i
  haveI : Subsingleton Cert.Pre_finite_inputs.S_.Idx := ⟨fun a b => funext fun d => d.elim0⟩
  have hi := Host.reduce_andi_all _ _ hr hu ix0 e i
  apply real_of_abs_lt_top
  have hi' : Ideal.cmp .olt (max (x i) (-(x i))) (Ideal.ofBits .f32 0x7F800000#32) = 1#1 := hi
  rw [ofBits_inf] at hi'
  unfold Ideal.cmp at hi'
  by_contra hc
  simp [hc] at hi'

/-- Under the precondition every entry of the float arguments the variance argument needs is a real number. -/
theorem real_of_pre [hP : Cert.Pre_finite_inputs.Facts]
    (x0 : FVec Ideal Cert.Pre_finite_inputs.S100000x128 .f32) (x1 : IVec Cert.Pre_finite_inputs.S2x1600000 32)
    (x2 : FVec Ideal Cert.Pre_finite_inputs.S128x128 .f32) (x3 x4 x5 : FVec Ideal Cert.Pre_finite_inputs.S128 .f32)
    (x6 : FVec Ideal Cert.Pre_finite_inputs.S128x128 .f32) (x7 x8 x9 : FVec Ideal Cert.Pre_finite_inputs.S128 .f32)
    (x10 : FVec Ideal Cert.Pre_finite_inputs.S128x128 .f32)
    (h : Cert.Pre_finite_inputs.fn (F := Ideal) x0 x1 x2 x3 x4 x5 x6 x7 x8 x9 x10 = (fun _ => 1#1)) :
    (∀ i, ∃ r : ℝ, x0 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal)) ∧ (∀ i, ∃ r : ℝ, x6 i = (r : EReal))
      ∧ (∀ i, ∃ r : ℝ, x7 i = (r : EReal)) := by
  have h0 := congrFun h ValueIdx.ix0
  dsimp only [Cert.Pre_finite_inputs.fn, Cert.Pre_finite_inputs.fn_part1, Cert.Pre_finite_inputs.fn_part2] at h0
  obtain ⟨h0, -⟩ := IntOp.andi_eq_one.1 h0
  obtain ⟨h0, -⟩ := IntOp.andi_eq_one.1 h0
  obtain ⟨h0, -⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨real_of_all x0 _ _ _ e0, real_of_all x2 _ _ _ e2, real_of_all x3 _ _ _ e3, real_of_all x4 _ _ _ e4,
    real_of_all x5 _ _ _ e5, real_of_all x6 _ _ _ e6, real_of_all x7 _ _ _ e7⟩

/-- A finite sum of real numbers is a real number. -/
theorem real_sum {ι : Type} (s : Finset ι) (f : ι → EReal) (hf : ∀ i, ∃ r : ℝ, f i = (r : EReal)) :
    ∃ r : ℝ, ∑ i ∈ s, f i = (r : EReal) := by
  choose g hg using hf
  refine ⟨∑ i ∈ s, g i, ?_⟩
  rw [← Gin.coe_sum]
  exact Finset.sum_congr rfl (fun i _ => hg i)

/-- A gather of an array of real numbers is an array of real numbers. -/
theorem real_gather {s si t : Shape} {w : Nat} (d : GatherDims s si t) (x : FVec Ideal s .f32) (idx : IVec si w)
    (hx : ∀ i, ∃ r : ℝ, x i = (r : EReal)) : ∀ j, ∃ r : ℝ, Host.gather d x idx j = (r : EReal) := by
  intro j
  unfold Host.gather
  exact hx _

/-- An accumulating scatter of real numbers into an array of real numbers is an array of real numbers. -/
theorem real_scatterAdd {s si su : Shape} {w : Nat} (d : ScatterDims s si su) (x : FVec Ideal s .f32)
    (idx : IVec si w) (upd : FVec Ideal su .f32) (hx : ∀ i, ∃ r : ℝ, x i = (r : EReal))
    (hu : ∀ j, ∃ r : ℝ, upd j = (r : EReal)) : ∀ i, ∃ r : ℝ, Host.scatterAdd d x idx upd i = (r : EReal) := by
  intro i
  obtain ⟨a, ha⟩ := hx i
  obtain ⟨b, hb⟩ := real_sum (Finset.univ.filter (fun j => d.resultIdx? j idx = some i)) upd hu
  refine ⟨a + b, ?_⟩
  show x i + ∑ j ∈ Finset.univ.filter (fun j => d.resultIdx? j idx = some i), upd j = ((a + b : ℝ) : EReal)
  rw [ha, hb, EReal.coe_add]

/-- The aggregated input features are real where the input features are. -/
theorem h0_real (x0 : (⟨Cert.ReferenceIdeal.S100000x128, .f32⟩ : BufTy).Contents (Elt Ideal))
    (x1 : (⟨Cert.ReferenceIdeal.S2x1600000, .i32⟩ : BufTy).Contents (Elt Ideal))
    (hx : ∀ i, ∃ r : ℝ, x0 i = (r : EReal)) :
    Gin.MatReal (fun (p : Fin 100000) (k : Fin 128) => Cert.ReferenceIdeal.Read.val_main_v16 (F := Ideal) x0 x1 (ix2 p k)) := by
  intro p k
  have hz : ∀ i, ∃ r : ℝ, Cert.ReferenceIdeal.Read.val_main_v11 (F := Ideal) i = (r : EReal) :=
    fun i => ⟨0, Gin.Consts.ofBits_zero⟩
  have hs : ∃ r : ℝ, Cert.ReferenceIdeal.Read.val_main_v13 (F := Ideal) x0 x1 (ix2 p k) = (r : EReal) := by
    unfold Cert.ReferenceIdeal.Read.val_main_v13 Cert.ReferenceIdeal.Read.val_main_v10
    exact real_scatterAdd _ _ _ _ hz (real_gather _ x0 _ hx) _
  obtain ⟨a, ha⟩ := hx (ix2 p k)
  obtain ⟨b, hb⟩ := hs
  refine ⟨1 * a + b, ?_⟩
  show Ideal.ofBits .f32 0x3F800000#32 * x0 (ix2 p k)
      + Cert.ReferenceIdeal.Read.val_main_v13 (F := Ideal) x0 x1 (ix2 p k) = ((1 * a + b : ℝ) : EReal)
  rw [Gin.Consts.ofBits_one, ha, hb, EReal.coe_add, EReal.coe_mul, EReal.coe_one]

end Cert.Finite

end
-- ==== Proof.lean ====
/-
  The certificate: a three-layer perceptron over aggregated node features, with batch normalization after the
  first two layers, computed by three tiled kernels against a plain reference.

  The two programs aggregate the features by the same host operations and apply the same affine maps,
  normalizations and clippings; they differ in how a column's variance is taken. The kernels accumulate, block by
  block over the node axis, each column's sum and sum of squares, and the host takes the variance as the mean of
  the squares minus the squared mean; the reference takes the mean of the squared deviations from the mean. The
  inputs being finite, every intermediate value is a real number, and for real numbers the two variances are
  equal; everything downstream is then the same function of the same values.
-/
import proofs.«129943_j71416716197907_1_alg».proof.Defs
import proofs.«129943_j71416716197907_1_alg».proof.Proof.Gen.Kernel
import proofs.«129943_j71416716197907_1_alg».proof.Proof.Gen.Kernel.Frame
import proofs.«129943_j71416716197907_1_alg».proof.Proof.Gen.KernelIdeal
import proofs.«129943_j71416716197907_1_alg».proof.Proof.Gen.KernelIdeal.Frame
import proofs.«129943_j71416716197907_1_alg».proof.Proof.Gen.ReferenceIdeal
import proofs.«129943_j71416716197907_1_alg».proof.Proof.Gen.ReferenceIdeal.Run
import proofs.«129943_j71416716197907_1_alg».proof.Proof.Gen.ReferenceIdeal.Read
import proofs.«129943_j71416716197907_1_alg».proof.Proof.Gen.Pre_finite_inputs
import proofs.«129943_j71416716197907_1_alg».proof.Proof.KRun
import proofs.«129943_j71416716197907_1_alg».proof.Proof.Chain
import proofs.«129943_j71416716197907_1_alg».proof.Proof.RefStages
import proofs.«129943_j71416716197907_1_alg».proof.Proof.Finite
import proofs.«129943_j71416716197907_1_alg».proof.Proof.Spec
import proofs.«129943_j71416716197907_1_alg».proof.Proof.Consts
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx
open Cert.ReferenceIdeal.RefValue (h0 wt row n eps)

/-- The word-level kernel program runs and leaves its arguments unchanged. -/
theorem frame_p : Cert.frame_Kernel := fun m ρ _ => Cert.Kernel.Gen.frame m ρ
/-- So does its reading over the extended reals. -/
theorem frame_pi : Cert.frame_KernelIdeal := fun m ρ _ => Cert.KernelIdeal.Gen.frame m ρ
/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The number of rows the two programs divide by is the real number of rows. -/
theorem n_eq : n = (((100000 : ℕ) : ℝ) : EReal) := by
  show Ideal.ofBits .f32 0x47C35000#32 = _
  rw [Gin.Consts.ofBits_n]; norm_num

/-- From memories agreeing on the arguments both programs end with the same result: the layer of the arguments,
    with either variance. -/
theorem algebraic : Cert.algebraic_KernelIdeal_ReferenceIdeal := by
  intro m ρ m' ρ' hpre hagree
  refine ⟨fun c => (fun i : Cert.ReferenceIdeal.S100000x128.Idx =>
      Gin.layer Gin.varR n eps (h0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
        (wt (m ((c.tc : Thread Cert.KernelIdeal.nD Cert.KernelIdeal.τ).loc Cert.KernelIdeal.main_arg2))) (wt (m ((c.tc : Thread Cert.KernelIdeal.nD Cert.KernelIdeal.τ).loc Cert.KernelIdeal.main_arg6))) (wt (m ((c.tc : Thread Cert.KernelIdeal.nD Cert.KernelIdeal.τ).loc Cert.KernelIdeal.main_arg10)))
        (row (m ((c.tc : Thread Cert.KernelIdeal.nD Cert.KernelIdeal.τ).loc Cert.KernelIdeal.main_arg3))) (row (m ((c.tc : Thread Cert.KernelIdeal.nD Cert.KernelIdeal.τ).loc Cert.KernelIdeal.main_arg4))) (row (m ((c.tc : Thread Cert.KernelIdeal.nD Cert.KernelIdeal.τ).loc Cert.KernelIdeal.main_arg5)))
        (row (m ((c.tc : Thread Cert.KernelIdeal.nD Cert.KernelIdeal.τ).loc Cert.KernelIdeal.main_arg7))) (row (m ((c.tc : Thread Cert.KernelIdeal.nD Cert.KernelIdeal.τ).loc Cert.KernelIdeal.main_arg8))) (row (m ((c.tc : Thread Cert.KernelIdeal.nD Cert.KernelIdeal.τ).loc Cert.KernelIdeal.main_arg9))) (i 0) (i 1)), ?_, ?_⟩
  · refine (θ_run Cert.KernelIdeal.defs _ _).mono (fun r h c => ⟨(h c).1.trans ?_, (h c).2⟩)
      (Cert.KernelIdeal.KRun.run (F := Ideal) m ρ)
    rw [Cert.KernelIdeal.Chain.result]
    obtain ⟨r0, r2, r3, r4, r5, r6, r7⟩ := Cert.Finite.real_of_pre _ _ _ _ _ _ _ _ _ _ _ (hpre c)
    have hl := Gin.layer_varK_eq_varR n eps n_eq (by norm_num) Gin.Consts.ofBits_eps
      (h0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (wt (m ((c.tc : Thread Cert.KernelIdeal.nD Cert.KernelIdeal.τ).loc Cert.KernelIdeal.main_arg2))) (wt (m ((c.tc : Thread Cert.KernelIdeal.nD Cert.KernelIdeal.τ).loc Cert.KernelIdeal.main_arg6))) (wt (m ((c.tc : Thread Cert.KernelIdeal.nD Cert.KernelIdeal.τ).loc Cert.KernelIdeal.main_arg10)))
      (row (m ((c.tc : Thread Cert.KernelIdeal.nD Cert.KernelIdeal.τ).loc Cert.KernelIdeal.main_arg3))) (row (m ((c.tc : Thread Cert.KernelIdeal.nD Cert.KernelIdeal.τ).loc Cert.KernelIdeal.main_arg4))) (row (m ((c.tc : Thread Cert.KernelIdeal.nD Cert.KernelIdeal.τ).loc Cert.KernelIdeal.main_arg5)))
      (row (m ((c.tc : Thread Cert.KernelIdeal.nD Cert.KernelIdeal.τ).loc Cert.KernelIdeal.main_arg7))) (row (m ((c.tc : Thread Cert.KernelIdeal.nD Cert.KernelIdeal.τ).loc Cert.KernelIdeal.main_arg8))) (row (m ((c.tc : Thread Cert.KernelIdeal.nD Cert.KernelIdeal.τ).loc Cert.KernelIdeal.main_arg9)))
      (Cert.Finite.h0_real _ _ r0) (fun k q => r2 (ix2 q k)) (fun k q => r6 (ix2 q k))
      (fun q => r3 (ix1 q)) (fun q => r4 (ix1 q)) (fun q => r5 (ix1 q)) (fun q => r7 (ix1 q))
    funext i
    exact congrFun (congrFun hl (i 0)) (i 1)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v81_eq, Cert.ReferenceIdeal.RefValue.ref_eq,
      (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1,
      (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
